-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S800x1000 : S_.BroadcastsInDim S800x1000 (![] : Fin 0 → Fin S800x1000.rank)
  reducesTo_S800x1000_S_d0_1 : S800x1000.ReducesTo [0, 1] S_
  bcast_S_S800 : S_.BroadcastsInDim S800 (![] : Fin 0 → Fin S800.rank)
  reducesTo_S800_S_d0 : S800.ReducesTo [0] S_
  bcast_S_S400x800 : S_.BroadcastsInDim S400x800 (![] : Fin 0 → Fin S400x800.rank)
  reducesTo_S400x800_S_d0_1 : S400x800.ReducesTo [0, 1] S_
  bcast_S_S400 : S_.BroadcastsInDim S400 (![] : Fin 0 → Fin S400.rank)
  reducesTo_S400_S_d0 : S400.ReducesTo [0] S_
  bcast_S_S600x400 : S_.BroadcastsInDim S600x400 (![] : Fin 0 → Fin S600x400.rank)
  reducesTo_S600x400_S_d0_1 : S600x400.ReducesTo [0, 1] S_
  bcast_S_S600 : S_.BroadcastsInDim S600 (![] : Fin 0 → Fin S600.rank)
  reducesTo_S600_S_d0 : S600.ReducesTo [0] S_
  bcast_S_S6x600 : S_.BroadcastsInDim S6x600 (![] : Fin 0 → Fin S6x600.rank)
  reducesTo_S6x600_S_d0_1 : S6x600.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg14 : FVec F S6 .f32) (main_arg15 : FVec F S6x600 .f32) (main_v63 : IVec S_ 1) (main_v67 : IVec S_ 1) : IVec S_ 1 :=
  let main_v68 : IVec S_ 1 := andi main_v63 main_v67
  let main_v69 : FVec F S6 .f32 := Host.absf main_arg14
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  let main_v74 : FVec F S6x600 .f32 := Host.absf main_arg15
  let main_cst_28 : FVec F S_ .f32 := constant S_ .f32 0x7F800000#32
  let main_v75 : FVec F S6x600 .f32 := broadcastInDim S6x600 ![] bcast_S_S6x600 main_cst_28
  let main_v76 : IVec S6x600 1 := cmpf .olt main_v74 main_v75
  let main_c_29 : IVec S_ 1 := constantI S_ 1 1#1
  let main_v77 : IVec S_ 1 := (fun x v => Host.reduce IntOp.andi x v reducesTo_S6x600_S_d0_1 h_S_) main_v76 main_c_29
  let main_v78 : IVec S_ 1 := andi main_v73 main_v77
  main_v78

def fn_part3 {F : FTy → Type} [FloatOps F] (main_arg11 : FVec F S600 .f32) (main_arg12 : FVec F S600x400 .f32) (main_arg13 : FVec F S6x600 .f32) (main_arg14 : FVec F S6 .f32) (main_arg15 : FVec F S6x600 .f32) (main_v48 : IVec S_ 1) (main_v49 : FVec F S600x400 .f32) (main_v50 : FVec F S600x400 .f32) : IVec S_ 1 :=
  let main_v51 : IVec S600x400 1 := cmpf .olt main_v49 main_v50
  let main_c_19 : IVec S_ 1 := constantI S_ 1 1#1
  let main_v52 : IVec S_ 1 := (fun x v => Host.reduce IntOp.andi x v reducesTo_S600x400_S_d0_1 h_S_) main_v51 main_c_19
  let main_v53 : IVec S_ 1 := andi main_v48 main_v52
  let main_v54 : FVec F S600 .f32 := Host.absf main_arg11
  let main_cst_20 : FVec F S_ .f32 := constant S_ .f32 0x7F800000#32
  let main_v55 : FVec F S600 .f32 := broadcastInDim S600 ![] bcast_S_S600 main_cst_20
  let main_v56 : IVec S600 1 := cmpf .olt main_v54 main_v55
  let main_c_21 : IVec S_ 1 := constantI S_ 1 1#1
  let main_v57 : IVec S_ 1 := (fun x v => Host.reduce IntOp.andi x v reducesTo_S600_S_d0 h_S_) main_v56 main_c_21
  let main_v58 : IVec S_ 1 := andi main_v53 main_v57
  let main_v59 : FVec F S600x400 .f32 := Host.absf main_arg12
  let main_cst_22 : FVec F S_ .f32 := constant S_ .f32 0x7F800000#32
  let main_v60 : FVec F S600x400 .f32 := broadcastInDim S600x400 ![] bcast_S_S600x400 main_cst_22
  let main_v61 : IVec S600x400 1 := cmpf .olt main_v59 main_v60
  let main_c_23 : IVec S_ 1 := constantI S_ 1 1#1
  let main_v62 : IVec S_ 1 := (fun x v => Host.reduce IntOp.andi x v reducesTo_S600x400_S_d0_1 h_S_) main_v61 main_c_23
  let main_v63 : IVec S_ 1 := andi main_v58 main_v62
  let main_v64 : FVec F S6x600 .f32 := Host.absf main_arg13
  let main_cst_24 : FVec F S_ .f32 := constant S_ .f32 0x7F800000#32
  let main_v65 : FVec F S6x600 .f32 := broadcastInDim S6x600 ![] bcast_S_S6x600 main_cst_24
  let main_v66 : IVec S6x600 1 := cmpf .olt main_v64 main_v65
  let main_c_25 : IVec S_ 1 := constantI S_ 1 1#1
  let main_v67 : IVec S_ 1 := (fun x v => Host.reduce IntOp.andi x v reducesTo_S6x600_S_d0_1 h_S_) main_v66 main_c_25
  fn_part4 (F := F) main_arg14 main_arg15 main_v63 main_v67

def fn_part2 {F : FTy → Type} [FloatOps F] (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) (main_v33 : IVec S_ 1) : IVec S_ 1 :=
  let main_v34 : FVec F S400x800 .f32 := Host.absf main_arg7
  let main_cst_12 : FVec F S_ .f32 := constant S_ .f32 0x7F800000#32
  let main_v35 : FVec F S400x800 .f32 := broadcastInDim S400x800 ![] bcast_S_S400x800 main_cst_12
  let main_v36 : IVec S400x800 1 := cmpf .olt main_v34 main_v35
  let main_c_13 : IVec S_ 1 := constantI S_ 1 1#1
  let main_v37 : IVec S_ 1 := (fun x v => Host.reduce IntOp.andi x v reducesTo_S400x800_S_d0_1 h_S_) main_v36 main_c_13
  let main_v38 : IVec S_ 1 := andi main_v33 main_v37
  let main_v39 : FVec F S400 .f32 := Host.absf main_arg8
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x800 .f32 := Host.absf main_arg9
  let main_cst_16 : FVec F S_ .f32 := constant S_ .f32 0x7F800000#32
  let main_v45 : FVec F S400x800 .f32 := broadcastInDim S400x800 ![] bcast_S_S400x800 main_cst_16
  let main_v46 : IVec S400x800 1 := cmpf .olt main_v44 main_v45
  let main_c_17 : IVec S_ 1 := constantI S_ 1 1#1
  let main_v47 : IVec S_ 1 := (fun x v => Host.reduce IntOp.andi x v reducesTo_S400x800_S_d0_1 h_S_) main_v46 main_c_17
  let main_v48 : IVec S_ 1 := andi main_v43 main_v47
  let main_v49 : FVec F S600x400 .f32 := Host.absf main_arg10
  let main_cst_18 : FVec F S_ .f32 := constant S_ .f32 0x7F800000#32
  let main_v50 : FVec F S600x400 .f32 := broadcastInDim S600x400 ![] bcast_S_S600x400 main_cst_18
  fn_part3 (F := F) main_arg11 main_arg12 main_arg13 main_arg14 main_arg15 main_v48 main_v49 main_v50

def fn_part1 {F : FTy → Type} [FloatOps F] (main_arg4 : FVec F S800x1000 .f32) (main_arg5 : FVec F S800 .f32) (main_arg6 : FVec F S800x1000 .f32) (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  let main_v19 : FVec F S800x1000 .f32 := Host.absf main_arg4
  let main_cst_6 : FVec F S_ .f32 := constant S_ .f32 0x7F800000#32
  let main_v20 : FVec F S800x1000 .f32 := broadcastInDim S800x1000 ![] bcast_S_S800x1000 main_cst_6
  let main_v21 : IVec S800x1000 1 := cmpf .olt main_v19 main_v20
  let main_c_7 : IVec S_ 1 := constantI S_ 1 1#1
  let main_v22 : IVec S_ 1 := (fun x v => Host.reduce IntOp.andi x v reducesTo_S800x1000_S_d0_1 h_S_) main_v21 main_c_7
  let main_v23 : IVec S_ 1 := andi main_v18 main_v22
  let main_v24 : FVec F S800 .f32 := Host.absf main_arg5
  let main_cst_8 : FVec F S_ .f32 := constant S_ .f32 0x7F800000#32
  let main_v25 : FVec F S800 .f32 := broadcastInDim S800 ![] bcast_S_S800 main_cst_8
  let main_v26 : IVec S800 1 := cmpf .olt main_v24 main_v25
  let main_c_9 : IVec S_ 1 := constantI S_ 1 1#1
  let main_v27 : IVec S_ 1 := (fun x v => Host.reduce IntOp.andi x v reducesTo_S800_S_d0 h_S_) main_v26 main_c_9
  let main_v28 : IVec S_ 1 := andi main_v23 main_v27
  let main_v29 : FVec F S800x1000 .f32 := Host.absf main_arg6
  let main_cst_10 : FVec F S_ .f32 := constant S_ .f32 0x7F800000#32
  let main_v30 : FVec F S800x1000 .f32 := broadcastInDim S800x1000 ![] bcast_S_S800x1000 main_cst_10
  let main_v31 : IVec S800x1000 1 := cmpf .olt main_v29 main_v30
  let main_c_11 : IVec S_ 1 := constantI S_ 1 1#1
  let main_v32 : IVec S_ 1 := (fun x v => Host.reduce IntOp.andi x v reducesTo_S800x1000_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1024 .f32) (main_arg1 : FVec F S1000x1024 .f32) (main_arg2 : FVec F S1000 .f32) (main_arg3 : FVec F S1000x1024 .f32) (main_arg4 : FVec F S800x1000 .f32) (main_arg5 : FVec F S800 .f32) (main_arg6 : FVec F S800x1000 .f32) (main_arg7 : FVec F S400x800 .f32) (main_arg8 : FVec F S400 .f32) (main_arg9 : FVec F S400x800 .f32) (main_arg10 : FVec F S600x400 .f32) (main_arg11 : FVec F S600 .f32) (main_arg12 : FVec F S600x400 .f32) (main_arg13 : FVec F S6x600 .f32) (main_arg14 : FVec F S6 .f32) (main_arg15 : FVec F S6x600 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S1x1000 : Shape := ⟨2, ![1, 1000]⟩
abbrev S1x800 : Shape := ⟨2, ![1, 800]⟩
abbrev S1x400 : Shape := ⟨2, ![1, 400]⟩
abbrev S1x600 : Shape := ⟨2, ![1, 600]⟩
abbrev S1x6 : Shape := ⟨2, ![1, 6]⟩
abbrev S16384x1000 : Shape := ⟨2, ![16384, 1000]⟩
abbrev S16384x800 : Shape := ⟨2, ![16384, 800]⟩
abbrev S16384x400 : Shape := ⟨2, ![16384, 400]⟩
abbrev S16384x600 : Shape := ⟨2, ![16384, 600]⟩
abbrev S16384x6 : Shape := ⟨2, ![16384, 6]⟩
abbrev S1024x1024 : Shape := ⟨2, ![1024, 1024]⟩
abbrev S1024x1000 : Shape := ⟨2, ![1024, 1000]⟩
abbrev S1024x800 : Shape := ⟨2, ![1024, 800]⟩
abbrev S1024x400 : Shape := ⟨2, ![1024, 400]⟩
abbrev S1024x600 : Shape := ⟨2, ![1024, 600]⟩
abbrev S1024x6 : Shape := ⟨2, ![1024, 6]⟩

abbrev nBuf : Space → Nat
  | .hbm => 31
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000, .f32⟩
  | .hbm, ⟨3, _⟩ => ⟨S1000x1024, .f32⟩
  | .hbm, ⟨4, _⟩ => ⟨S800x1000, .f32⟩
  | .hbm, ⟨5, _⟩ => ⟨S800, .f32⟩
  | .hbm, ⟨6, _⟩ => ⟨S800x1000, .f32⟩
  | .hbm, ⟨7, _⟩ => ⟨S400x800, .f32⟩
  | .hbm, ⟨8, _⟩ => ⟨S400, .f32⟩
  | .hbm, ⟨9, _⟩ => ⟨S400x800, .f32⟩
  | .hbm, ⟨10, _⟩ => ⟨S600x400, .f32⟩
  | .hbm, ⟨11, _⟩ => ⟨S600, .f32⟩
  | .hbm, ⟨12, _⟩ => ⟨S600x400, .f32⟩
  | .hbm, ⟨13, _⟩ => ⟨S6x600, .f32⟩
  | .hbm, ⟨14, _⟩ => ⟨S6, .f32⟩
  | .hbm, ⟨15, _⟩ => ⟨S6x600, .f32⟩
  | .hbm, ⟨16, _⟩ => ⟨S1x1000, .f32⟩
  | .hbm, ⟨17, _⟩ => ⟨S1x800, .f32⟩
  | .hbm, ⟨18, _⟩ => ⟨S1x400, .f32⟩
  | .hbm, ⟨19, _⟩ => ⟨S1x600, .f32⟩
  | .hbm, ⟨20, _⟩ => ⟨S1x6, .f32⟩
  | .hbm, ⟨21, _⟩ => ⟨S16384x1000, .bf16⟩
  | .hbm, ⟨22, _⟩ => ⟨S16384x800, .bf16⟩
  | .hbm, ⟨23, _⟩ => ⟨S16384x400, .bf16⟩
  | .hbm, ⟨24, _⟩ => ⟨S16384x600, .bf16⟩
  | .hbm, ⟨25, _⟩ => ⟨S16384x6, .bf16⟩
  | .hbm, ⟨26, _⟩ => ⟨S16384x1000, .f32⟩
  | .hbm, ⟨27, _⟩ => ⟨S16384x800, .f32⟩
  | .hbm, ⟨28, _⟩ => ⟨S16384x400, .f32⟩
  | .hbm, ⟨29, _⟩ => ⟨S16384x600, .f32⟩
  | .hbm, ⟨30, _⟩ => ⟨S16384x6, .f32⟩
  | .local _ .vmem, ⟨0, _⟩ => ⟨S1024x1024, .f32⟩
  | .local _ .vmem, ⟨1, _⟩ => ⟨S1024x1024, .f32⟩
  | .local _ .vmem, ⟨2, _⟩ => ⟨S1000x1024, .f32⟩
  | .local _ .vmem, ⟨3, _⟩ => ⟨S1x1000, .f32⟩
  | .local _ .vmem, ⟨4, _⟩ => ⟨S1000x1024, .f32⟩
  | .local _ .vmem, ⟨5, _⟩ => ⟨S800x1000, .f32⟩
  | .local _ .vmem, ⟨6, _⟩ => ⟨S1x800, .f32⟩
  | .local _ .vmem, ⟨7, _⟩ => ⟨S800x1000, .f32⟩
  | .local _ .vmem, ⟨8, _⟩ => ⟨S400x800, .f32⟩
  | .local _ .vmem, ⟨9, _⟩ => ⟨S1x400, .f32⟩
  | .local _ .vmem, ⟨10, _⟩ => ⟨S400x800, .f32⟩
  | .local _ .vmem, ⟨11, _⟩ => ⟨S600x400, .f32⟩
  | .local _ .vmem, ⟨12, _⟩ => ⟨S1x600, .f32⟩
  | .local _ .vmem, ⟨13, _⟩ => ⟨S600x400, .f32⟩
  | .local _ .vmem, ⟨14, _⟩ => ⟨S6x600, .f32⟩
  | .local _ .vmem, ⟨15, _⟩ => ⟨S1x6, .f32⟩
  | .local _ .vmem, ⟨16, _⟩ => ⟨S6x600, .f32⟩
  | .local _ .vmem, ⟨17, _⟩ => ⟨S1024x1000, .bf16⟩
  | .local _ .vmem, ⟨18, _⟩ => ⟨S1024x1000, .bf16⟩
  | .local _ .vmem, ⟨19, _⟩ => ⟨S1024x800, .bf16⟩
  | .local _ .vmem, ⟨20, _⟩ => ⟨S1024x800, .bf16⟩
  | .local _ .vmem, ⟨21, _⟩ => ⟨S1024x400, .bf16⟩
  | .local _ .vmem, ⟨22, _⟩ => ⟨S1024x400, .bf16⟩
  | .local _ .vmem, ⟨23, _⟩ => ⟨S1024x600, .bf16⟩
  | .local _ .vmem, ⟨24, _⟩ => ⟨S1024x600, .bf16⟩
  | .local _ .vmem, ⟨25, _⟩ => ⟨S1024x6, .bf16⟩
  | .local _ .vmem, ⟨26, _⟩ => ⟨S1024x6, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S800x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x800 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S800x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x800 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x800 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S600x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x600 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S600x400 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x600 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x600 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1000 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x800 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x400 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x600 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x6 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S1000_S1x1000 : S1000.ShapeCasts S1x1000
  shapeCasts_S800_S1x800 : S800.ShapeCasts S1x800
  shapeCasts_S400_S1x400 : S400.ShapeCasts S1x400
  shapeCasts_S600_S1x600 : S600.ShapeCasts S1x600
  shapeCasts_S6_S1x6 : S6.ShapeCasts S1x6
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  packedbf16_S1024x1000_S1024x1000_0_0 : (Rect.unit (s := S1024x1000) ![0, 0] S1024x1000.size inb_S1024x1000_S1024x1000_0_0).PackedRows (EltTy.packing .bf16)
  inb_S800x1000_S800x1000_0_0 : ∀ a, (![0, 0] : Fin 2 → Nat) a + S800x1000.size a ≤ S800x1000.size a
  h_S800x1000 : 0 < S800x1000.numel
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S1024x800 : S1x800.Broadcasts S1024x800
  inb_S1024x800_S1024x800_0_0 : ∀ a, (![0, 0] : Fin 2 → Nat) a + S1024x800.size a ≤ S1024x800.size a
  h_S1024x800 : 0 < S1024x800.numel
  packedbf16_S1024x800_S1024x800_0_0 : (Rect.unit (s := S1024x800) ![0, 0] S1024x800.size inb_S1024x800_S1024x800_0_0).PackedRows (EltTy.packing .bf16)
  inb_S400x800_S400x800_0_0 : ∀ a, (![0, 0] : Fin 2 → Nat) a + S400x800.size a ≤ S400x800.size a
  h_S400x800 : 0 < S400x800.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S1024x400 : S1x400.Broadcasts S1024x400
  inb_S1024x400_S1024x400_0_0 : ∀ a, (![0, 0] : Fin 2 → Nat) a + S1024x400.size a ≤ S1024x400.size a
  h_S1024x400 : 0 < S1024x400.numel
  packedbf16_S1024x400_S1024x400_0_0 : (Rect.unit (s := S1024x400) ![0, 0] S1024x400.size inb_S1024x400_S1024x400_0_0).PackedRows (EltTy.packing .bf16)
  inb_S600x400_S600x400_0_0 : ∀ a, (![0, 0] : Fin 2 → Nat) a + S600x400.size a ≤ S600x400.size a
  h_S600x400 : 0 < S600x400.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S1024x600 : S1x600.Broadcasts S1024x600
  inb_S1024x600_S1024x600_0_0 : ∀ a, (![0, 0] : Fin 2 → Nat) a + S1024x600.size a ≤ S1024x600.size a
  h_S1024x600 : 0 < S1024x600.numel
  packedbf16_S1024x600_S1024x600_0_0 : (Rect.unit (s := S1024x600) ![0, 0] S1024x600.size inb_S1024x600_S1024x600_0_0).PackedRows (EltTy.packing .bf16)
  inb_S6x600_S6x600_0_0 : ∀ a, (![0, 0] : Fin 2 → Nat) a + S6x600.size a ≤ S6x600.size a
  h_S6x600 : 0 < S6x600.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  packedbf16_S1024x6_S1024x6_0_0 : (Rect.unit (s := S1024x6) ![0, 0] S1024x6.size inb_S1024x6_S1024x6_0_0).PackedRows (EltTy.packing .bf16)
  dot_S1024x1024_S1000x1024_S1024x1000_1_1_0_0_n_n_wf : DotDims.WF S1024x1024 S1000x1024 S1024x1000 [1] [1] [0] [0] [] []
  dot_S1024x1000_S800x1000_S1024x800_1_1_0_0_n_n_wf : DotDims.WF S1024x1000 S800x1000 S1024x800 [1] [1] [0] [0] [] []
  dot_S1024x800_S400x800_S1024x400_1_1_0_0_n_n_wf : DotDims.WF S1024x800 S400x800 S1024x400 [1] [1] [0] [0] [] []
  dot_S1024x400_S600x400_S1024x600_1_1_0_0_n_n_wf : DotDims.WF S1024x400 S600x400 S1024x600 [1] [1] [0] [0] [] []
  dot_S1024x600_S6x600_S1024x6_1_1_0_0_n_n_wf : DotDims.WF S1024x600 S6x600 S1024x6 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .f32 = 32 ∨ (Rect.block (s := S1000x1024) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S1000x1024.size a
  hwx0_3 : ∀ i : grid0.Coords, EltTy.bits .f32 = 32 ∨ (Rect.block (s := S1000x1024) S1000x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S800x1000.size a ≤ S800x1000.size a
  hwx0_4 : ∀ i : grid0.Coords, EltTy.bits .f32 = 32 ∨ (Rect.block (s := S800x1000) S800x1000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x800.size a ≤ S1x800.size a
  hwx0_5 : ∀ i : grid0.Coords, EltTy.bits .f32 = 32 ∨ (Rect.block (s := S1x800) S1x800.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S800x1000.size a ≤ S800x1000.size a
  hwx0_6 : ∀ i : grid0.Coords, EltTy.bits .f32 = 32 ∨ (Rect.block (s := S800x1000) S800x1000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400x800.size a ≤ S400x800.size a
  hwx0_7 : ∀ i : grid0.Coords, EltTy.bits .f32 = 32 ∨ (Rect.block (s := S400x800) S400x800.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x400.size a ≤ S1x400.size a
  hwx0_8 : ∀ i : grid0.Coords, EltTy.bits .f32 = 32 ∨ (Rect.block (s := S1x400) S1x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x800.size a ≤ S400x800.size a
  hwx0_9 : ∀ i : grid0.Coords, EltTy.bits .f32 = 32 ∨ (Rect.block (s := S400x800) S400x800.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S600x400.size a ≤ S600x400.size a
  hwx0_10 : ∀ i : grid0.Coords, EltTy.bits .f32 = 32 ∨ (Rect.block (s := S600x400) S600x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x600.size a ≤ S1x600.size a
  hwx0_11 : ∀ i : grid0.Coords, EltTy.bits .f32 = 32 ∨ (Rect.block (s := S1x600) S1x600.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S600x400.size a ≤ S600x400.size a
  hwx0_12 : ∀ i : grid0.Coords, EltTy.bits .f32 = 32 ∨ (Rect.block (s := S600x400) S600x400.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S6x600.size a ≤ S6x600.size a
  hwx0_13 : ∀ i : grid0.Coords, EltTy.bits .f32 = 32 ∨ (Rect.block (s := S6x600) S6x600.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x6.size a ≤ S1x6.size a
  hwx0_14 : ∀ i : grid0.Coords, EltTy.bits .f32 = 32 ∨ (Rect.block (s := S1x6) S1x6.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S6x600.size a ≤ S6x600.size a
  hwx0_15 : ∀ i : grid0.Coords, EltTy.bits .f32 = 32 ∨ (Rect.block (s := S6x600) S6x600.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x1000.size a ≤ S16384x1000.size a
  hwx0_16 : ∀ i : grid0.Coords, EltTy.bits .bf16 = 32 ∨ (Rect.block (s := S16384x1000) S1024x1000.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x800.size a ≤ S16384x800.size a
  hwx0_17 : ∀ i : grid0.Coords, EltTy.bits .bf16 = 32 ∨ (Rect.block (s := S16384x800) S1024x800.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x400.size a ≤ S16384x400.size a
  hwx0_18 : ∀ i : grid0.Coords, EltTy.bits .bf16 = 32 ∨ (Rect.block (s := S16384x400) S1024x400.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x600.size a ≤ S16384x600.size a
  hwx0_19 : ∀ i : grid0.Coords, EltTy.bits .bf16 = 32 ∨ (Rect.block (s := S16384x600) S1024x600.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x6.size a ≤ S16384x6.size a
  hwx0_20 : ∀ i : grid0.Coords, EltTy.bits .bf16 = 32 ∨ (Rect.block (s := S16384x6) S1024x6.size (cc0_transform_20 i) (hinb0_20 i)).WholeWords (EltTy.packing .bf16)

variable [Facts₀]

def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf
def dot_S1024x1000_S800x1000_S1024x800_1_1_0_0_n_n : DotDims S1024x1000 S800x1000 S1024x800 where
  lhsContracting := [1]
  rhsContracting := [1]
  lhsNonContracting := [0]
  rhsNonContracting := [0]
  lhsBatch := []
  rhsBatch := []
  wf := dot_S1024x1000_S800x1000_S1024x800_1_1_0_0_n_n_wf
def dot_S1024x800_S400x800_S1024x400_1_1_0_0_n_n : DotDims S1024x800 S400x800 S1024x400 where
  lhsContracting := [1]
  rhsContracting := [1]
  lhsNonContracting := [0]
  rhsNonContracting := [0]
  lhsBatch := []
  rhsBatch := []
  wf := dot_S1024x800_S400x800_S1024x400_1_1_0_0_n_n_wf
def dot_S1024x400_S600x400_S1024x600_1_1_0_0_n_n : DotDims S1024x400 S600x400 S1024x600 where
  lhsContracting := [1]
  rhsContracting := [1]
  lhsNonContracting := [0]
  rhsNonContracting := [0]
  lhsBatch := []
  rhsBatch := []
  wf := dot_S1024x400_S600x400_S1024x600_1_1_0_0_n_n_wf
def dot_S1024x600_S6x600_S1024x6_1_1_0_0_n_n : DotDims S1024x600 S6x600 S1024x6 where
  lhsContracting := [1]
  rhsContracting := [1]
  lhsNonContracting := [0]
  rhsNonContracting := [0]
  lhsBatch := []
  rhsBatch := []
  wf := dot_S1024x600_S6x600_S1024x6_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S800x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x800.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S800x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400x800.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S400x800.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S600x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x600.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S600x400.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S6x600.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x6.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S6x600.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5_0) S1024x1000.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v5_1) S1024x800.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v5_2) S1024x400.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v5_3) S1024x600.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v5_4) S1024x6.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S1000 : Shape := ⟨1, ![1000]⟩
abbrev S800x1000 : Shape := ⟨2, ![800, 1000]⟩
abbrev S800 : Shape := ⟨1, ![800]⟩
abbrev S400x800 : Shape := ⟨2, ![400, 800]⟩
abbrev S400 : Shape := ⟨1, ![400]⟩
abbrev S600x400 : Shape := ⟨2, ![600, 400]⟩
abbrev S600 : Shape := ⟨1, ![600]⟩
abbrev S6x600 : Shape := ⟨2, ![6, 600]⟩
abbrev S6 : Shape := ⟨1, ![6]⟩
abbrev S1024x1000 : Shape := ⟨2, ![1024, 1000]⟩
abbrev S16384x1000 : Shape := ⟨2, ![16384, 1000]⟩
abbrev S1x1000 : Shape := ⟨2, ![1, 1000]⟩
abbrev S_ : Shape := ⟨0, ![]⟩
abbrev S1000x800 : Shape := ⟨2, ![1000, 800]⟩
abbrev S16384x800 : Shape := ⟨2, ![16384, 800]⟩
abbrev S1x800 : Shape := ⟨2, ![1, 800]⟩
abbrev S800x400 : Shape := ⟨2, ![800, 400]⟩
abbrev S16384x400 : Shape := ⟨2, ![16384, 400]⟩
abbrev S1x400 : Shape := ⟨2, ![1, 400]⟩
abbrev S400x600 : Shape := ⟨2, ![400, 600]⟩
abbrev S16384x600 : Shape := ⟨2, ![16384, 600]⟩
abbrev S1x600 : Shape := ⟨2, ![1, 600]⟩
abbrev S600x6 : Shape := ⟨2, ![600, 6]⟩
abbrev S16384x6 : Shape := ⟨2, ![16384, 6]⟩
abbrev S1x6 : Shape := ⟨2, ![1, 6]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000, .f32⟩
  | .hbm, ⟨3, _⟩ => ⟨S1000x1024, .f32⟩
  | .hbm, ⟨4, _⟩ => ⟨S800x1000, .f32⟩
  | .hbm, ⟨5, _⟩ => ⟨S800, .f32⟩
  | .hbm, ⟨6, _⟩ => ⟨S800x1000, .f32⟩
  | .hbm, ⟨7, _⟩ => ⟨S400x800, .f32⟩
  | .hbm, ⟨8, _⟩ => ⟨S400, .f32⟩
  | .hbm, ⟨9, _⟩ => ⟨S400x800, .f32⟩
  | .hbm, ⟨10, _⟩ => ⟨S600x400, .f32⟩
  | .hbm, ⟨11, _⟩ => ⟨S600, .f32⟩
  | .hbm, ⟨12, _⟩ => ⟨S600x400, .f32⟩
  | .hbm, ⟨13, _⟩ => ⟨S6x600, .f32⟩
  | .hbm, ⟨14, _⟩ => ⟨S6, .f32⟩
  | .hbm, ⟨15, _⟩ => ⟨S6x600, .f32⟩
  | .hbm, ⟨16, _⟩ => ⟨S1000x1024, .f32⟩
  | .hbm, ⟨17, _⟩ => ⟨S1024x1000, .f32⟩
  | .hbm, ⟨18, _⟩ => ⟨S16384x1000, .f32⟩
  | .hbm, ⟨19, _⟩ => ⟨S1x1000, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S800x1000, .f32⟩
  | .hbm, ⟨26, _⟩ => ⟨S1000x800, .f32⟩
  | .hbm, ⟨27, _⟩ => ⟨S16384x800, .f32⟩
  | .hbm, ⟨28, _⟩ => ⟨S1x800, .f32⟩
  | .hbm, ⟨29, _⟩ => ⟨S16384x800, .f32⟩
  | .hbm, ⟨30, _⟩ => ⟨S16384x800, .f32⟩
  | .hbm, ⟨31, _⟩ => ⟨S_, .f32⟩
  | .hbm, ⟨32, _⟩ => ⟨S16384x800, .f32⟩
  | .hbm, ⟨33, _⟩ => ⟨S16384x800, .f32⟩
  | .hbm, ⟨34, _⟩ => ⟨S400x800, .f32⟩
  | .hbm, ⟨35, _⟩ => ⟨S800x400, .f32⟩
  | .hbm, ⟨36, _⟩ => ⟨S16384x400, .f32⟩
  | .hbm, ⟨37, _⟩ => ⟨S1x400, .f32⟩
  | .hbm, ⟨38, _⟩ => ⟨S16384x400, .f32⟩
  | .hbm, ⟨39, _⟩ => ⟨S16384x400, .f32⟩
  | .hbm, ⟨40, _⟩ => ⟨S_, .f32⟩
  | .hbm, ⟨41, _⟩ => ⟨S16384x400, .f32⟩
  | .hbm, ⟨42, _⟩ => ⟨S16384x400, .f32⟩
  | .hbm, ⟨43, _⟩ => ⟨S600x400, .f32⟩
  | .hbm, ⟨44, _⟩ => ⟨S400x600, .f32⟩
  | .hbm, ⟨45, _⟩ => ⟨S16384x600, .f32⟩
  | .hbm, ⟨46, _⟩ => ⟨S1x600, .f32⟩
  | .hbm, ⟨47, _⟩ => ⟨S16384x600, .f32⟩
  | .hbm, ⟨48, _⟩ => ⟨S16384x600, .f32⟩
  | .hbm, ⟨49, _⟩ => ⟨S6x600, .f32⟩
  | .hbm, ⟨50, _⟩ => ⟨S600x6, .f32⟩
  | .hbm, ⟨51, _⟩ => ⟨S16384x6, .f32⟩
  | .hbm, ⟨52, _⟩ => ⟨S1x6, .f32⟩
  | .hbm, ⟨53, _⟩ => ⟨S16384x6, .f32⟩
  | .hbm, ⟨54, _⟩ => ⟨S16384x6, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_cst : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  transposes_S1000x1024_S1024x1000_1_0 : S1000x1024.Transposes [1, 0] S1024x1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  transposes_S800x1000_S1000x800_1_0 : S800x1000.Transposes [1, 0] S1000x800
  bcast_S800_S1x800_1 : S800.BroadcastsInDim S1x800 (![1] : Fin 1 → Fin S1x800.rank)
  bcast_S1x800_S16384x800_0_1 : S1x800.BroadcastsInDim S16384x800 (![0, 1] : Fin 2 → Fin S16384x800.rank)
  bcast_S_S16384x800 : S_.BroadcastsInDim S16384x800 (![] : Fin 0 → Fin S16384x800.rank)
  transposes_S400x800_S800x400_1_0 : S400x800.Transposes [1, 0] S800x400
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  transposes_S600x400_S400x600_1_0 : S600x400.Transposes [1, 0] S400x600
  bcast_S600_S1x600_1 : S600.BroadcastsInDim S1x600 (![1] : Fin 1 → Fin S1x600.rank)
  bcast_S1x600_S16384x600_0_1 : S1x600.BroadcastsInDim S16384x600 (![0, 1] : Fin 2 → Fin S16384x600.rank)
  transposes_S6x600_S600x6_1_0 : S6x600.Transposes [1, 0] S600x6
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  dot_S16384x1024_S1024x1000_S16384x1000_1_0_0_1_n_n_wf : DotDims.WF S16384x1024 S1024x1000 S16384x1000 [1] [0] [0] [1] [] []
  dot_S16384x1000_S1000x800_S16384x800_1_0_0_1_n_n_wf : DotDims.WF S16384x1000 S1000x800 S16384x800 [1] [0] [0] [1] [] []
  dot_S16384x800_S800x400_S16384x400_1_0_0_1_n_n_wf : DotDims.WF S16384x800 S800x400 S16384x400 [1] [0] [0] [1] [] []
  dot_S16384x400_S400x600_S16384x600_1_0_0_1_n_n_wf : DotDims.WF S16384x400 S400x600 S16384x600 [1] [0] [0] [1] [] []
  dot_S16384x600_S600x6_S16384x6_1_0_0_1_n_n_wf : DotDims.WF S16384x600 S600x6 S16384x6 [1] [0] [0] [1] [] []

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf
def dot_S16384x1000_S1000x800_S16384x800_1_0_0_1_n_n : DotDims S16384x1000 S1000x800 S16384x800 where
  lhsContracting := [1]
  rhsContracting := [0]
  lhsNonContracting := [0]
  rhsNonContracting := [1]
  lhsBatch := []
  rhsBatch := []
  wf := dot_S16384x1000_S1000x800_S16384x800_1_0_0_1_n_n_wf
def dot_S16384x800_S800x400_S16384x400_1_0_0_1_n_n : DotDims S16384x800 S800x400 S16384x400 where
  lhsContracting := [1]
  rhsContracting := [0]
  lhsNonContracting := [0]
  rhsNonContracting := [1]
  lhsBatch := []
  rhsBatch := []
  wf := dot_S16384x800_S800x400_S16384x400_1_0_0_1_n_n_wf
def dot_S16384x400_S400x600_S16384x600_1_0_0_1_n_n : DotDims S16384x400 S400x600 S16384x600 where
  lhsContracting := [1]
  rhsContracting := [0]
  lhsNonContracting := [0]
  rhsNonContracting := [1]
  lhsBatch := []
  rhsBatch := []
  wf := dot_S16384x400_S400x600_S16384x600_1_0_0_1_n_n_wf
def dot_S16384x600_S600x6_S16384x6_1_0_0_1_n_n : DotDims S16384x600 S600x6 S16384x6 where
  lhsContracting := [1]
  rhsContracting := [0]
  lhsNonContracting := [0]
  rhsNonContracting := [1]
  lhsBatch := []
  rhsBatch := []
  wf := dot_S16384x600_S600x6_S16384x6_1_0_0_1_n_n_wf

class Facts : Prop extends Facts₀ where

variable [Facts]
-- ==== Proof.LibDotRows.lean ====
/-
  A matrix product `x · wᵀ` read at an entry. A `tpu.matmul` whose dimension numbers contract axis 1 of the left
  operand `[A, K]` with axis 1 of the right operand `[B, K]` (rows against rows: no transpose is materialised), with
  no batch axis, into the zero accumulator, holds at entry `(p, q)` the sum over `k < K` of `l(p, k) · r(q, k)` at the
  ideal instance — for any extents `A`, `B`, `K` and any two float formats.
-/
import Idealize.ShloMosaic.PureOps.Ideal
import Idealize.ShloMosaic.PureOps.Ideal.Laws
import Idealize.ShloMosaic.Lib.ValueIdx

noncomputable section

namespace Cert.DotRows

open Idealize.ShloMosaic Idealize.ShloMosaic.ValueIdx
open scoped BigOperators

variable {A B K : ℕ}

/-- The dimension numbers of `x · wᵀ`: contract axis 1 with axis 1, keep axis 0 of each, no batch axis. -/
structure IsRowsByRows (D : DotDims (⟨2, ![A, K]⟩ : Shape) (⟨2, ![B, K]⟩ : Shape) (⟨2, ![A, B]⟩ : Shape)) : Prop where
  lc : D.lhsContracting = [1]
  rc : D.rhsContracting = [1]
  ln : D.lhsNonContracting = [0]
  rn : D.rhsNonContracting = [0]
  lb : D.lhsBatch = []
  rb : D.rhsBatch = []

variable {D : DotDims (⟨2, ![A, K]⟩ : Shape) (⟨2, ![B, K]⟩ : Shape) (⟨2, ![A, B]⟩ : Shape)}

theorem contr_rank (h : IsRowsByRows D) : D.contr.rank = 1 := by
  rw [D.rank_contr, h.lc]; rfl

theorem contr_size (h : IsRowsByRows D) : D.contr.size ⟨0, by rw [contr_rank h]; exact Nat.one_pos⟩ = K := by
  obtain ⟨lc, rc, ln, rn, lb, rb, wf⟩ := D
  obtain ⟨h1, h2, h3, h4, h5, h6⟩ := h
  simp only at h1 h2 h3 h4 h5 h6
  subst h1 h2 h3 h4 h5 h6
  rfl

/-- The left operand's row is the output's row … -/
theorem lhs_row (h : IsRowsByRows D) (j : (⟨2, ![A, B]⟩ : Shape).Idx) (k : D.contr.Idx) :
    (D.lhsIdx j k 0).val = (j 0).val := by
  obtain ⟨lc, rc, ln, rn, lb, rb, wf⟩ := D
  obtain ⟨h1, h2, h3, h4, h5, h6⟩ := h
  simp only at h1 h2 h3 h4 h5 h6
  subst h1 h2 h3 h4 h5 h6
  simp [DotDims.lhsIdx]; rfl

/-- … and the right operand's row is the output's column. -/
theorem rhs_row (h : IsRowsByRows D) (j : (⟨2, ![A, B]⟩ : Shape).Idx) (k : D.contr.Idx) :
    (D.rhsIdx j k 0).val = (j 1).val := by
  obtain ⟨lc, rc, ln, rn, lb, rb, wf⟩ := D
  obtain ⟨h1, h2, h3, h4, h5, h6⟩ := h
  simp only at h1 h2 h3 h4 h5 h6
  subst h1 h2 h3 h4 h5 h6
  simp [DotDims.rhsIdx]; rfl

/-- Entry `(p, q)` of `x · wᵀ` into the zero accumulator, at the ideal instance. -/
theorem matmul_zero_apply (h : IsRowsByRows D) {φ₁ φ₂ : FTy} (prec : Option ContractPrecision)
    (l : FVec Ideal (⟨2, ![A, K]⟩ : Shape) φ₁) (r : FVec Ideal (⟨2, ![B, K]⟩ : Shape) φ₂) (p : Fin A) (q : Fin B) :
    FloatOps.matmul D prec l r (constant (⟨2, ![A, B]⟩ : Shape) .f32 0x00000000#32) (ix2 p q)
      = ∑ k : Fin K, l (ix2 p k) * r (ix2 q k) := by
  rw [Ideal.matmul_constant_zero_apply, ← Equiv.sum_comp (contrEquiv1 D K (contr_rank h) (contr_size h)).symm]
  refine Finset.sum_congr rfl fun k _ => ?_
  have el : D.lhsIdx (ix2 p q) ((contrEquiv1 D K (contr_rank h) (contr_size h)).symm k) = ix2 p k := by
    funext a; apply Fin.ext
    match a with
    | ⟨0, _⟩ => exact lhs_row h _ _
    | ⟨1, _⟩ => exact (D.lhsIdx_val_of_single h.lc _ _).trans (contrEquiv1_symm_val D K (contr_rank h) (contr_size h) k)
  have er : D.rhsIdx (ix2 p q) ((contrEquiv1 D K (contr_rank h) (contr_size h)).symm k) = ix2 q k := by
    funext a; apply Fin.ext
    match a with
    | ⟨0, _⟩ => exact rhs_row h _ _
    | ⟨1, _⟩ => exact (D.rhsIdx_val_of_single h.rc _ _).trans (contrEquiv1_symm_val D K (contr_rank h) (contr_size h) k)
  rw [el, er]

end Cert.DotRows

end
-- ==== Proof.MaskedLayer.lean ====
/-
  One layer of a masked multilayer perceptron over the extended reals.

  A layer takes an activation `x` of extents `[N, K]`, a weight `W` and a sparsity mask `M` of extents `[D, K]` and a
  bias `b` of length `D`, and returns, at row `n` and column `d`,

      (∑ k < K, x(n, k) · (W(d, k) · M(d, k))) + b(d)

  (`affine`): the product of `x` with the TRANSPOSE of the masked weight, plus the bias on every row. A hidden layer
  then takes the larger of that number and zero (`relu`). Row `n` of the result depends on row `n` of `x` only, so a
  layer applied to a block of consecutive rows of `x` is the same block of rows of the layer applied to all of `x`
  (`affine_rowBlock`, `relu_rowBlock`): this is what lets a kernel work through the batch one tile of rows at a time.

  The second half reads the layer as a kernel spells it — both matrix operands narrowed to a shorter float format
  (the identity on extended reals), a matrix product contracting axis 1 of `x` with axis 1 of the masked weight into
  a zero accumulator, the bias held as a `[1, D]` row and broadcast down the rows — and shows it is `affine`.
-/
import Idealize.ShloMosaic.PureOps.Ideal
import Idealize.ShloMosaic.PureOps.Ideal.Laws
import Idealize.ShloMosaic.Lib.ValueIdx
import Idealize.ShloMosaic.Lib.Pipeline.Value
import proofs.«150853_g54752243090113_cont_9to1c4b_246_26_alg».proof.Proof.LibDotRows

noncomputable section

namespace Cert.MaskedLayer

open Idealize.ShloMosaic Idealize.ShloMosaic.ValueIdx
open scoped BigOperators

variable {N K D : ℕ}

/-- The affine part of a layer: entry `(n, d)` is `∑ k, x(n, k) · (W(d, k) · M(d, k)) + b(d)`. -/
def affine (x : (⟨2, ![N, K]⟩ : Shape).Idx → EReal) (W M : (⟨2, ![D, K]⟩ : Shape).Idx → EReal) (b : Fin D → EReal) :
    (⟨2, ![N, D]⟩ : Shape).Idx → EReal :=
  fun j => (∑ k : Fin K, x (ix2 (j 0) k) * (W (ix2 (j 1) k) * M (ix2 (j 1) k))) + b (j 1)

/-- The rectifier, entry by entry: the larger of the entry and the number the all-zero word denotes. -/
def relu {s : Shape} (h : s.Idx → EReal) : s.Idx → EReal :=
  fun j => max (h j) (Ideal.ofBits .f32 0x00000000#32)

/-- Rows `o, o + 1, …, o + B - 1` of a matrix of `N` rows. -/
def rowBlock (B o : ℕ) (ho : o + B ≤ N) (x : (⟨2, ![N, K]⟩ : Shape).Idx → EReal) :
    (⟨2, ![B, K]⟩ : Shape).Idx → EReal :=
  fun j => x (ix2 ⟨o + (j 0).val, by have := idx2_lt0 j; omega⟩ (j 1))

/-- A layer of a block of rows is that block of rows of the layer: a row of the result reads one row of `x`. -/
theorem affine_rowBlock (B o : ℕ) (ho : o + B ≤ N) (x : (⟨2, ![N, K]⟩ : Shape).Idx → EReal)
    (W M : (⟨2, ![D, K]⟩ : Shape).Idx → EReal) (b : Fin D → EReal) :
    affine (rowBlock B o ho x) W M b = rowBlock B o ho (affine x W M b) := rfl

/-- The rectifier acts entry by entry, so it commutes with taking a block of rows. -/
theorem relu_rowBlock (B o : ℕ) (ho : o + B ≤ N) (h : (⟨2, ![N, K]⟩ : Shape).Idx → EReal) :
    relu (rowBlock B o ho h) = rowBlock B o ho (relu h) := rfl

/-- A bias held as a `[1, D]` row, recast to its own shape and broadcast down `N` rows, read at `(p, q)`: entry `q` of the row. -/
theorem bias_row {α : Type} (b : (⟨2, ![1, D]⟩ : Shape).Idx → α)
    (hs : (⟨2, ![1, D]⟩ : Shape).ShapeCasts (⟨2, ![1, D]⟩ : Shape))
    (hb : (⟨2, ![1, D]⟩ : Shape).Broadcasts (⟨2, ![N, D]⟩ : Shape)) (p : Fin N) (q : Fin D) :
    broadcastTo (⟨2, ![N, D]⟩ : Shape) (shapeCast (⟨2, ![1, D]⟩ : Shape) b hs) hb (ix2 p q) = b (ix2 0 q) := by
  rw [shapeCast_self]
  refine broadcastTo_apply b hb (ix2 p q) (ix2 0 q) (fun a => ?_)
  match a with
  | ⟨0, _⟩ => exact (if_pos rfl).symm
  | ⟨1, _⟩ =>
    show q.val = if D = 1 then 0 else q.val
    split
    · have := q.isLt; omega
    · rfl

/-- The layer as a kernel spells it is `affine`: narrowing a float format is the identity on extended reals, the
    matrix product into the zero accumulator is the sum over the shared axis, and the broadcast bias row adds `b(d)`. -/
theorem kernel_layer {Dd : DotDims (⟨2, ![N, K]⟩ : Shape) (⟨2, ![D, K]⟩ : Shape) (⟨2, ![N, D]⟩ : Shape)}
    (hD : Cert.DotRows.IsRowsByRows Dd) {ψ : FTy} (hlt : ψ.bits < FTy.f32.bits)
    (x : FVec Ideal (⟨2, ![N, K]⟩ : Shape) .f32) (W M : FVec Ideal (⟨2, ![D, K]⟩ : Shape) .f32)
    (b : FVec Ideal (⟨2, ![1, D]⟩ : Shape) .f32)
    (hs : (⟨2, ![1, D]⟩ : Shape).ShapeCasts (⟨2, ![1, D]⟩ : Shape))
    (hb : (⟨2, ![1, D]⟩ : Shape).Broadcasts (⟨2, ![N, D]⟩ : Shape)) :
    addf (FloatOps.matmul Dd none (truncf ψ x hlt) (truncf ψ (mulf W M) hlt)
            (constant (⟨2, ![N, D]⟩ : Shape) .f32 0x00000000#32))
         (broadcastTo (⟨2, ![N, D]⟩ : Shape) (shapeCast (⟨2, ![1, D]⟩ : Shape) b hs) hb)
      = affine x W M (fun q => b (ix2 0 q)) := by
  funext j
  obtain ⟨p, q, rfl⟩ : ∃ (p : Fin N) (q : Fin D), j = ix2 p q := ⟨j 0, j 1, eq_ix2 j⟩
  show FloatOps.matmul Dd none (truncf ψ x hlt) (truncf ψ (mulf W M) hlt)
        (constant (⟨2, ![N, D]⟩ : Shape) .f32 0x00000000#32) (ix2 p q)
      + broadcastTo (⟨2, ![N, D]⟩ : Shape) (shapeCast (⟨2, ![1, D]⟩ : Shape) b hs) hb (ix2 p q) = _
  rw [Cert.DotRows.matmul_zero_apply hD, bias_row]
  rfl

end Cert.MaskedLayer

end
-- ==== Proof.Payload.lean ====
/-
  The kernel body's arithmetic, one layer at a time, over the extended reals.

  The body computes five layers in a row on one tile of 1024 rows: each takes the previous layer's result (before it
  is narrowed for storing: narrowing is the identity on extended reals), multiplies weight and mask entry by entry,
  contracts, adds the bias row, and — for the first three layers — rectifies. What it stores for a layer is that
  layer's result narrowed, so as extended reals the stored value and the value passed on are the same array.
-/
import proofs.«150853_g54752243090113_cont_9to1c4b_246_26_alg».proof.Proof.Gen.KernelIdeal.Skeleton
import proofs.«150853_g54752243090113_cont_9to1c4b_246_26_alg».proof.Proof.MaskedLayer

noncomputable section

namespace Cert.KernelIdeal.Payload

open Idealize.ShloMosaic Idealize.ShloMosaic.ValueIdx Cert.KernelIdeal Cert.KernelIdeal.Gen Cert.MaskedLayer

variable (v0 : Vec Ideal S1024x1024 .f32) (v2 v3 : Vec Ideal S1000x1024 .f32) (v7 : Vec Ideal S1x1000 .f32)
  (v15 v16 : Vec Ideal S800x1000 .f32) (v21 : Vec Ideal S1x800 .f32)
  (v26 : FVec Ideal S1024x800 .f32) (v29 v30 : Vec Ideal S400x800 .f32) (v35 : Vec Ideal S1x400 .f32)
  (v43 v44 : Vec Ideal S600x400 .f32) (v49 : Vec Ideal S1x600 .f32)
  (v55 v56 : Vec Ideal S6x600 .f32) (v61 : Vec Ideal S1x6 .f32)

/-- Layer 1, rectified, of the tile. -/
theorem pay1_eq : k0_pay1 (F := Ideal) v0 v2 v3 v7 = relu (affine v0 v2 v3 fun q => v7 (ix2 0 q)) :=
  congrArg relu (kernel_layer ⟨rfl, rfl, rfl, rfl, rfl, rfl⟩ bitsLt_bf16_f32 v0 v2 v3 v7 _ _)

/-- What is stored for layer 1 is layer 1. -/
theorem pay2_eq : k0_pay2 (F := Ideal) v0 v2 v3 v7 = k0_pay1 (F := Ideal) v0 v2 v3 v7 := rfl

/-- Layer 2, rectified, of layer 1. -/
theorem pay3_eq : k0_pay3 (F := Ideal) v0 v2 v3 v7 v15 v16 v21
    = relu (affine (k0_pay1 (F := Ideal) v0 v2 v3 v7) v15 v16 fun q => v21 (ix2 0 q)) :=
  congrArg relu (kernel_layer ⟨rfl, rfl, rfl, rfl, rfl, rfl⟩ bitsLt_bf16_f32 (k0_pay1 (F := Ideal) v0 v2 v3 v7) v15 v16 v21 _ _)

theorem pay4_eq : k0_pay4 (F := Ideal) v0 v2 v3 v7 v15 v16 v21 = k0_pay3 (F := Ideal) v0 v2 v3 v7 v15 v16 v21 := rfl

/-- Layer 3, rectified, of whatever layer 2 passed on. -/
theorem pay5_eq : k0_pay5 (F := Ideal) v26 v29 v30 v35 = relu (affine v26 v29 v30 fun q => v35 (ix2 0 q)) :=
  congrArg relu (kernel_layer ⟨rfl, rfl, rfl, rfl, rfl, rfl⟩ bitsLt_bf16_f32 v26 v29 v30 v35 _ _)

theorem pay6_eq : k0_pay6 (F := Ideal) v26 v29 v30 v35 = k0_pay5 (F := Ideal) v26 v29 v30 v35 := rfl

/-- Layer 4 (no rectifier) of layer 3. -/
theorem pay7_eq : k0_pay7 (F := Ideal) v26 v29 v30 v35 v43 v44 v49
    = affine (k0_pay5 (F := Ideal) v26 v29 v30 v35) v43 v44 fun q => v49 (ix2 0 q) :=
  kernel_layer ⟨rfl, rfl, rfl, rfl, rfl, rfl⟩ bitsLt_bf16_f32 (k0_pay5 (F := Ideal) v26 v29 v30 v35) v43 v44 v49 _ _

theorem pay8_eq : k0_pay8 (F := Ideal) v26 v29 v30 v35 v43 v44 v49 = k0_pay7 (F := Ideal) v26 v29 v30 v35 v43 v44 v49 := rfl

/-- Layer 5 (no rectifier) of layer 4; it is stored narrowed, which changes nothing here. -/
theorem pay9_eq : k0_pay9 (F := Ideal) v26 v29 v30 v35 v43 v44 v49 v55 v56 v61
    = affine (k0_pay7 (F := Ideal) v26 v29 v30 v35 v43 v44 v49) v55 v56 fun q => v61 (ix2 0 q) :=
  kernel_layer ⟨rfl, rfl, rfl, rfl, rfl, rfl⟩ bitsLt_bf16_f32 (k0_pay7 (F := Ideal) v26 v29 v30 v35 v43 v44 v49) v55 v56 v61 _ _

end Cert.KernelIdeal.Payload

end
-- ==== Proof.Network.lean ====
/-
  The five-layer masked perceptron, as one function of its input and its parameters.

  The widths are 1024 → 1000 → 800 → 400 → 600 → 6. The first three layers are rectified, the last two are affine only:

      h1 = relu (affine x  W1 M1 b1)        h4 = affine h3 W4 M4 b4
      h2 = relu (affine h1 W2 M2 b2)        h5 = affine h4 W5 M5 b5
      h3 = relu (affine h2 W3 M3 b3)

  Every layer acts on each row of its input by itself, so each `hₗ` of a block of rows of `x` is that block of rows of
  `hₗ x` (`h1_rowBlock` … `h5_rowBlock`).
-/
import proofs.«150853_g54752243090113_cont_9to1c4b_246_26_alg».proof.Proof.MaskedLayer

noncomputable section

namespace Cert.Network

open Idealize.ShloMosaic Cert.MaskedLayer

/-- The parameters: per layer a weight and a mask of extents `[out, in]` and a bias of length `out`. -/
structure Params where
  W1 : (⟨2, ![1000, 1024]⟩ : Shape).Idx → EReal
  M1 : (⟨2, ![1000, 1024]⟩ : Shape).Idx → EReal
  b1 : Fin 1000 → EReal
  W2 : (⟨2, ![800, 1000]⟩ : Shape).Idx → EReal
  M2 : (⟨2, ![800, 1000]⟩ : Shape).Idx → EReal
  b2 : Fin 800 → EReal
  W3 : (⟨2, ![400, 800]⟩ : Shape).Idx → EReal
  M3 : (⟨2, ![400, 800]⟩ : Shape).Idx → EReal
  b3 : Fin 400 → EReal
  W4 : (⟨2, ![600, 400]⟩ : Shape).Idx → EReal
  M4 : (⟨2, ![600, 400]⟩ : Shape).Idx → EReal
  b4 : Fin 600 → EReal
  W5 : (⟨2, ![6, 600]⟩ : Shape).Idx → EReal
  M5 : (⟨2, ![6, 600]⟩ : Shape).Idx → EReal
  b5 : Fin 6 → EReal

variable {N : ℕ} (P : Params)

def h1 (x : (⟨2, ![N, 1024]⟩ : Shape).Idx → EReal) : (⟨2, ![N, 1000]⟩ : Shape).Idx → EReal :=
  relu (affine x P.W1 P.M1 P.b1)
def h2 (x : (⟨2, ![N, 1024]⟩ : Shape).Idx → EReal) : (⟨2, ![N, 800]⟩ : Shape).Idx → EReal :=
  relu (affine (h1 P x) P.W2 P.M2 P.b2)
def h3 (x : (⟨2, ![N, 1024]⟩ : Shape).Idx → EReal) : (⟨2, ![N, 400]⟩ : Shape).Idx → EReal :=
  relu (affine (h2 P x) P.W3 P.M3 P.b3)
def h4 (x : (⟨2, ![N, 1024]⟩ : Shape).Idx → EReal) : (⟨2, ![N, 600]⟩ : Shape).Idx → EReal :=
  affine (h3 P x) P.W4 P.M4 P.b4
def h5 (x : (⟨2, ![N, 1024]⟩ : Shape).Idx → EReal) : (⟨2, ![N, 6]⟩ : Shape).Idx → EReal :=
  affine (h4 P x) P.W5 P.M5 P.b5

variable (B o : ℕ) (ho : o + B ≤ N) (x : (⟨2, ![N, 1024]⟩ : Shape).Idx → EReal)

theorem h1_rowBlock : h1 P (rowBlock B o ho x) = rowBlock B o ho (h1 P x) := rfl
theorem h2_rowBlock : h2 P (rowBlock B o ho x) = rowBlock B o ho (h2 P x) := rfl
theorem h3_rowBlock : h3 P (rowBlock B o ho x) = rowBlock B o ho (h3 P x) := rfl
theorem h4_rowBlock : h4 P (rowBlock B o ho x) = rowBlock B o ho (h4 P x) := rfl
theorem h5_rowBlock : h5 P (rowBlock B o ho x) = rowBlock B o ho (h5 P x) := rfl

end Cert.Network

end
-- ==== Proof.Tile.lean ====
/-
  One tile of the batch: what the kernel body leaves in its five output buffers.

  The body loads its sixteen input buffers whole (a tile of 1024 rows of the input; the five weights, the five masks and
  the five bias rows) and stores each layer's result whole into that layer's output buffer. So each output buffer ends
  holding the corresponding layer of the network, applied to the tile of rows, with the parameters the buffers hold.
-/
import proofs.«150853_g54752243090113_cont_9to1c4b_246_26_alg».proof.Proof.Gen.KernelIdeal.Frame
import proofs.«150853_g54752243090113_cont_9to1c4b_246_26_alg».proof.Proof.Payload
import proofs.«150853_g54752243090113_cont_9to1c4b_246_26_alg».proof.Proof.Network
import Idealize.ShloMosaic.Lib.Pipeline.Value

noncomputable section

namespace Cert.KernelIdeal.Tile

open Idealize.ShloMosaic Idealize.ShloMosaic.ValueIdx
open Cert.KernelIdeal Cert.KernelIdeal.Gen Cert.KernelIdeal.Payload Cert.MaskedLayer Cert.Network

theorem hz : (![0, 0] : Fin 2 → Nat) = fun _ => 0 := funext fun a => by fin_cases a <;> rfl

variable (x0 : Vec Ideal S1024x1024 .f32)
  (x1 : Vec Ideal S1000x1024 .f32) (x2 : Vec Ideal S1x1000 .f32) (x3 : Vec Ideal S1000x1024 .f32)
  (x4 : Vec Ideal S800x1000 .f32) (x5 : Vec Ideal S1x800 .f32) (x6 : Vec Ideal S800x1000 .f32)
  (x7 : Vec Ideal S400x800 .f32) (x8 : Vec Ideal S1x400 .f32) (x9 : Vec Ideal S400x800 .f32)
  (x10 : Vec Ideal S600x400 .f32) (x11 : Vec Ideal S1x600 .f32) (x12 : Vec Ideal S600x400 .f32)
  (x13 : Vec Ideal S6x600 .f32) (x14 : Vec Ideal S1x6 .f32) (x15 : Vec Ideal S6x600 .f32)

/-- The parameters a tile sees: weights and masks as the buffers hold them, each bias the one row of its `[1, D]` buffer. -/
def params : Params where
  W1 := x1
  M1 := x3
  b1 := fun q => x2 (ix2 0 q)
  W2 := x4
  M2 := x6
  b2 := fun q => x5 (ix2 0 q)
  W3 := x7
  M3 := x9
  b3 := fun q => x8 (ix2 0 q)
  W4 := x10
  M4 := x12
  b4 := fun q => x11 (ix2 0 q)
  W5 := x13
  M5 := x15
  b5 := fun q => x14 (ix2 0 q)

/-- Output buffer of layer 1: one store of the whole buffer, of whole loads. -/
theorem out16_eq : out0_16 x0 x1 x2 x3 x4 x5 x6 x7 x8 x9 x10 x11 x12 x13 x14 x15 = k0_pay2 x0 x1 x3 x2 := by
  unfold out0_16
  rw [View.canon_unit_zero hz]
  simp only [View.ld_unit_zero (S := S1024x1024) hz, View.ld_unit_zero (S := S1000x1024) hz,
    View.ld_unit_zero (S := S1x1000) hz]

theorem out17_eq : out0_17 x0 x1 x2 x3 x4 x5 x6 x7 x8 x9 x10 x11 x12 x13 x14 x15 = k0_pay4 x0 x1 x3 x2 x4 x6 x5 := by
  unfold out0_17
  rw [View.canon_unit_zero hz]
  simp only [View.ld_unit_zero (S := S1024x1024) hz, View.ld_unit_zero (S := S1000x1024) hz,
    View.ld_unit_zero (S := S1x1000) hz, View.ld_unit_zero (S := S800x1000) hz, View.ld_unit_zero (S := S1x800) hz]

theorem out18_eq : out0_18 x0 x1 x2 x3 x4 x5 x6 x7 x8 x9 x10 x11 x12 x13 x14 x15
    = k0_pay6 (k0_pay3 x0 x1 x3 x2 x4 x6 x5) x7 x9 x8 := by
  unfold out0_18
  rw [View.canon_unit_zero hz]
  simp only [View.ld_unit_zero (S := S1024x1024) hz, View.ld_unit_zero (S := S1000x1024) hz,
    View.ld_unit_zero (S := S1x1000) hz, View.ld_unit_zero (S := S800x1000) hz, View.ld_unit_zero (S := S1x800) hz,
    View.ld_unit_zero (S := S400x800) hz, View.ld_unit_zero (S := S1x400) hz]

theorem out19_eq : out0_19 x0 x1 x2 x3 x4 x5 x6 x7 x8 x9 x10 x11 x12 x13 x14 x15
    = k0_pay8 (k0_pay3 x0 x1 x3 x2 x4 x6 x5) x7 x9 x8 x10 x12 x11 := by
  unfold out0_19
  rw [View.canon_unit_zero hz]
  simp only [View.ld_unit_zero (S := S1024x1024) hz, View.ld_unit_zero (S := S1000x1024) hz,
    View.ld_unit_zero (S := S1x1000) hz, View.ld_unit_zero (S := S800x1000) hz, View.ld_unit_zero (S := S1x800) hz,
    View.ld_unit_zero (S := S400x800) hz, View.ld_unit_zero (S := S1x400) hz,
    View.ld_unit_zero (S := S600x400) hz, View.ld_unit_zero (S := S1x600) hz]

theorem out20_eq : out0_20 x0 x1 x2 x3 x4 x5 x6 x7 x8 x9 x10 x11 x12 x13 x14 x15
    = k0_pay9 (k0_pay3 x0 x1 x3 x2 x4 x6 x5) x7 x9 x8 x10 x12 x11 x13 x15 x14 := by
  unfold out0_20
  rw [View.canon_unit_zero hz]
  simp only [View.ld_unit_zero (S := S1024x1024) hz, View.ld_unit_zero (S := S1000x1024) hz,
    View.ld_unit_zero (S := S1x1000) hz, View.ld_unit_zero (S := S800x1000) hz, View.ld_unit_zero (S := S1x800) hz,
    View.ld_unit_zero (S := S400x800) hz, View.ld_unit_zero (S := S1x400) hz,
    View.ld_unit_zero (S := S600x400) hz, View.ld_unit_zero (S := S1x600) hz,
    View.ld_unit_zero (S := S6x600) hz, View.ld_unit_zero (S := S1x6) hz]

/-- The five output buffers hold the five layers of the tile. -/
theorem out16_h1 : out0_16 x0 x1 x2 x3 x4 x5 x6 x7 x8 x9 x10 x11 x12 x13 x14 x15
    = h1 (params x1 x2 x3 x4 x5 x6 x7 x8 x9 x10 x11 x12 x13 x14 x15) x0 := by
  rw [out16_eq, pay2_eq, pay1_eq]; rfl

theorem out17_h2 : out0_17 x0 x1 x2 x3 x4 x5 x6 x7 x8 x9 x10 x11 x12 x13 x14 x15
    = h2 (params x1 x2 x3 x4 x5 x6 x7 x8 x9 x10 x11 x12 x13 x14 x15) x0 := by
  rw [out17_eq, pay4_eq, pay3_eq, pay1_eq]; rfl

theorem out18_h3 : out0_18 x0 x1 x2 x3 x4 x5 x6 x7 x8 x9 x10 x11 x12 x13 x14 x15
    = h3 (params x1 x2 x3 x4 x5 x6 x7 x8 x9 x10 x11 x12 x13 x14 x15) x0 := by
  rw [out18_eq, pay6_eq, pay5_eq, pay3_eq, pay1_eq]; rfl

theorem out19_h4 : out0_19 x0 x1 x2 x3 x4 x5 x6 x7 x8 x9 x10 x11 x12 x13 x14 x15
    = h4 (params x1 x2 x3 x4 x5 x6 x7 x8 x9 x10 x11 x12 x13 x14 x15) x0 := by
  rw [out19_eq, pay8_eq, pay7_eq, pay5_eq, pay3_eq, pay1_eq]; rfl

theorem out20_h5 : out0_20 x0 x1 x2 x3 x4 x5 x6 x7 x8 x9 x10 x11 x12 x13 x14 x15
    = h5 (params x1 x2 x3 x4 x5 x6 x7 x8 x9 x10 x11 x12 x13 x14 x15) x0 := by
  rw [out20_eq, pay9_eq, pay7_eq, pay5_eq, pay3_eq, pay1_eq]; rfl

end Cert.KernelIdeal.Tile

end
-- ==== Proof.Arrays.lean ====
/-
  From tiles to whole arrays: what each of the kernel's five output arrays holds after the whole grid has run.

  The grid has 16 points. At point `t` the input window stages rows `1024·t … 1024·t + 1023` of the input, every
  parameter window stages its whole array (its block index never moves), and each output window writes its buffer
  back to rows `1024·t … 1024·t + 1023` of its array. A layer of a block of rows is that block of rows of the layer
  (`Cert.Network.h1_rowBlock` …), so what point `t` writes back is block `t` of the layer applied to the WHOLE input; the 16
  blocks tile the 16384 rows, so each output array ends holding its layer of the whole input.
-/
import proofs.«150853_g54752243090113_cont_9to1c4b_246_26_alg».proof.Proof.Gen.KernelIdeal.Frame
import proofs.«150853_g54752243090113_cont_9to1c4b_246_26_alg».proof.Proof.Tile
import Idealize.ShloMosaic.Lib.Pipeline.Value

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.MaskedLayer Cert.Network

/-! ## Where each window's block sits -/

/-- The parameter windows never move: block index `(0, 0)` at every grid point. -/
theorem idx_fixed : ∀ t : Fin cfg0.N,
    (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0)
    ∧ (∀ a, win0_13.index t a = 0) ∧ (∀ a, win0_14.index t a = 0) ∧ (∀ a, win0_15.index t a = 0) :=
  (by decide +kernel : ∀ t : Fin grid0.N, _)

/-- The input window and the five output windows move down the rows with the grid: block index `(t, 0)`. -/
theorem idx_moving : ∀ t : Fin cfg0.N,
    (win0_0.index t 0 = t.val ∧ win0_0.index t 1 = 0) ∧ (win0_16.index t 0 = t.val ∧ win0_16.index t 1 = 0)
    ∧ (win0_17.index t 0 = t.val ∧ win0_17.index t 1 = 0) ∧ (win0_18.index t 0 = t.val ∧ win0_18.index t 1 = 0)
    ∧ (win0_19.index t 0 = t.val ∧ win0_19.index t 1 = 0) ∧ (win0_20.index t 0 = t.val ∧ win0_20.index t 1 = 0) :=
  (by decide +kernel : ∀ t : Fin grid0.N, _)

theorem rows_le (t : Fin cfg0.N) : t.val * 1024 + 1024 ≤ 16384 := by
  have := t.isLt; have hN : cfg0.N = 16 := N_0; omega

/-! ## An output window's block of any array is a block of 1024 rows -/

theorem read16 (t : Fin cfg0.N) (G : S16384x1000.Idx → EReal) :
    (((cfg0.win 16).blk t).view.read (Elt Ideal) G : S1024x1000.Idx → EReal) = rowBlock 1024 (t.val * 1024) (rows_le t) G := by
  funext y; rw [View.read_apply]
  refine congrArg G (funext fun a => Fin.ext ?_)
  match a with
  | ⟨0, _⟩ => show win0_16.index t 0 * 1024 + 1 * (y 0).val = t.val * 1024 + (y 0).val; rw [(idx_moving t).2.1.1]; omega
  | ⟨1, _⟩ => show win0_16.index t 1 * 1000 + 1 * (y 1).val = (y 1).val; rw [(idx_moving t).2.1.2]; omega

theorem read17 (t : Fin cfg0.N) (G : S16384x800.Idx → EReal) :
    (((cfg0.win 17).blk t).view.read (Elt Ideal) G : S1024x800.Idx → EReal) = rowBlock 1024 (t.val * 1024) (rows_le t) G := by
  funext y; rw [View.read_apply]
  refine congrArg G (funext fun a => Fin.ext ?_)
  match a with
  | ⟨0, _⟩ => show win0_17.index t 0 * 1024 + 1 * (y 0).val = t.val * 1024 + (y 0).val; rw [(idx_moving t).2.2.1.1]; omega
  | ⟨1, _⟩ => show win0_17.index t 1 * 800 + 1 * (y 1).val = (y 1).val; rw [(idx_moving t).2.2.1.2]; omega

theorem read18 (t : Fin cfg0.N) (G : S16384x400.Idx → EReal) :
    (((cfg0.win 18).blk t).view.read (Elt Ideal) G : S1024x400.Idx → EReal) = rowBlock 1024 (t.val * 1024) (rows_le t) G := by
  funext y; rw [View.read_apply]
  refine congrArg G (funext fun a => Fin.ext ?_)
  match a with
  | ⟨0, _⟩ => show win0_18.index t 0 * 1024 + 1 * (y 0).val = t.val * 1024 + (y 0).val; rw [(idx_moving t).2.2.2.1.1]; omega
  | ⟨1, _⟩ => show win0_18.index t 1 * 400 + 1 * (y 1).val = (y 1).val; rw [(idx_moving t).2.2.2.1.2]; omega

theorem read19 (t : Fin cfg0.N) (G : S16384x600.Idx → EReal) :
    (((cfg0.win 19).blk t).view.read (Elt Ideal) G : S1024x600.Idx → EReal) = rowBlock 1024 (t.val * 1024) (rows_le t) G := by
  funext y; rw [View.read_apply]
  refine congrArg G (funext fun a => Fin.ext ?_)
  match a with
  | ⟨0, _⟩ => show win0_19.index t 0 * 1024 + 1 * (y 0).val = t.val * 1024 + (y 0).val; rw [(idx_moving t).2.2.2.2.1.1]; omega
  | ⟨1, _⟩ => show win0_19.index t 1 * 600 + 1 * (y 1).val = (y 1).val; rw [(idx_moving t).2.2.2.2.1.2]; omega

theorem read20 (t : Fin cfg0.N) (G : S16384x6.Idx → EReal) :
    (((cfg0.win 20).blk t).view.read (Elt Ideal) G : S1024x6.Idx → EReal) = rowBlock 1024 (t.val * 1024) (rows_le t) G := by
  funext y; rw [View.read_apply]
  refine congrArg G (funext fun a => Fin.ext ?_)
  match a with
  | ⟨0, _⟩ => show win0_20.index t 0 * 1024 + 1 * (y 0).val = t.val * 1024 + (y 0).val; rw [(idx_moving t).2.2.2.2.2.1]; omega
  | ⟨1, _⟩ => show win0_20.index t 1 * 6 + 1 * (y 1).val = (y 1).val; rw [(idx_moving t).2.2.2.2.2.2]; omega

/-! ## The arrays as the region finds them, and each input window's block -/

variable (m : (ℓ : Loc nD τ sig) → Buf (Elt Ideal) ℓ)

/-- The input, and the fifteen parameter arrays (each bias already reshaped to a `[1, D]` row), at region entry. -/
abbrev X (c : Dev nD) : S16384x1024.Idx → EReal := V m c main_arg0
abbrev A1 (c : Dev nD) : S1000x1024.Idx → EReal := V m c main_arg1
abbrev A2 (c : Dev nD) : S1x1000.Idx → EReal := V m c main_v0
abbrev A3 (c : Dev nD) : S1000x1024.Idx → EReal := V m c main_arg3
abbrev A4 (c : Dev nD) : S800x1000.Idx → EReal := V m c main_arg4
abbrev A5 (c : Dev nD) : S1x800.Idx → EReal := V m c main_v1
abbrev A6 (c : Dev nD) : S800x1000.Idx → EReal := V m c main_arg6
abbrev A7 (c : Dev nD) : S400x800.Idx → EReal := V m c main_arg7
abbrev A8 (c : Dev nD) : S1x400.Idx → EReal := V m c main_v2
abbrev A9 (c : Dev nD) : S400x800.Idx → EReal := V m c main_arg9
abbrev A10 (c : Dev nD) : S600x400.Idx → EReal := V m c main_arg10
abbrev A11 (c : Dev nD) : S1x600.Idx → EReal := V m c main_v3
abbrev A12 (c : Dev nD) : S600x400.Idx → EReal := V m c main_arg12
abbrev A13 (c : Dev nD) : S6x600.Idx → EReal := V m c main_arg13
abbrev A14 (c : Dev nD) : S1x6.Idx → EReal := V m c main_v4
abbrev A15 (c : Dev nD) : S6x600.Idx → EReal := V m c main_arg15

/-- The network's parameters as the region finds them. -/
def params (c : Dev nD) : Params :=
  Tile.params (A1 m c) (A2 m c) (A3 m c) (A4 m c) (A5 m c) (A6 m c) (A7 m c) (A8 m c) (A9 m c) (A10 m c) (A11 m c)
    (A12 m c) (A13 m c) (A14 m c) (A15 m c)

/-- The input window's block at point `t`: rows `1024·t …` of the input. -/
theorem blk_x (c : Dev nD) (t : Fin cfg0.N) :
    (iblk m c 0 t : S1024x1024.Idx → EReal) = rowBlock 1024 (t.val * 1024) (rows_le t) (X m c) := by
  funext y; unfold iblk; rw [View.read_apply]
  refine congrArg (X m c) (funext fun a => Fin.ext ?_)
  match a with
  | ⟨0, _⟩ => show win0_0.index t 0 * 1024 + 1 * (y 0).val = t.val * 1024 + (y 0).val; rw [(idx_moving t).1.1]; omega
  | ⟨1, _⟩ => show win0_0.index t 1 * 1024 + 1 * (y 1).val = (y 1).val; rw [(idx_moving t).1.2]; omega

/-- A parameter window's block is its whole array, at every point. -/
theorem blk_1 (c : Dev nD) (t : Fin cfg0.N) : (iblk m c 1 t : S1000x1024.Idx → EReal) = A1 m c := by
  funext y; unfold iblk; rw [View.read_apply]
  refine congrArg (A1 m c) (funext fun a => Fin.ext ?_)
  match a with
  | ⟨0, _⟩ => show win0_1.index t 0 * 1000 + 1 * (y 0).val = (y 0).val; rw [(idx_fixed t).1 0]; omega
  | ⟨1, _⟩ => show win0_1.index t 1 * 1024 + 1 * (y 1).val = (y 1).val; rw [(idx_fixed t).1 1]; omega

theorem blk_2 (c : Dev nD) (t : Fin cfg0.N) : (iblk m c 2 t : S1x1000.Idx → EReal) = A2 m c := by
  funext y; unfold iblk; rw [View.read_apply]
  refine congrArg (A2 m c) (funext fun a => Fin.ext ?_)
  match a with
  | ⟨0, _⟩ => show win0_2.index t 0 * 1 + 1 * (y 0).val = (y 0).val; rw [(idx_fixed t).2.1 0]; omega
  | ⟨1, _⟩ => show win0_2.index t 1 * 1000 + 1 * (y 1).val = (y 1).val; rw [(idx_fixed t).2.1 1]; omega

theorem blk_3 (c : Dev nD) (t : Fin cfg0.N) : (iblk m c 3 t : S1000x1024.Idx → EReal) = A3 m c := by
  funext y; unfold iblk; rw [View.read_apply]
  refine congrArg (A3 m c) (funext fun a => Fin.ext ?_)
  match a with
  | ⟨0, _⟩ => show win0_3.index t 0 * 1000 + 1 * (y 0).val = (y 0).val; rw [(idx_fixed t).2.2.1 0]; omega
  | ⟨1, _⟩ => show win0_3.index t 1 * 1024 + 1 * (y 1).val = (y 1).val; rw [(idx_fixed t).2.2.1 1]; omega

theorem blk_4 (c : Dev nD) (t : Fin cfg0.N) : (iblk m c 4 t : S800x1000.Idx → EReal) = A4 m c := by
  funext y; unfold iblk; rw [View.read_apply]
  refine congrArg (A4 m c) (funext fun a => Fin.ext ?_)
  match a with
  | ⟨0, _⟩ => show win0_4.index t 0 * 800 + 1 * (y 0).val = (y 0).val; rw [(idx_fixed t).2.2.2.1 0]; omega
  | ⟨1, _⟩ => show win0_4.index t 1 * 1000 + 1 * (y 1).val = (y 1).val; rw [(idx_fixed t).2.2.2.1 1]; omega

theorem blk_5 (c : Dev nD) (t : Fin cfg0.N) : (iblk m c 5 t : S1x800.Idx → EReal) = A5 m c := by
  funext y; unfold iblk; rw [View.read_apply]
  refine congrArg (A5 m c) (funext fun a => Fin.ext ?_)
  match a with
  | ⟨0, _⟩ => show win0_5.index t 0 * 1 + 1 * (y 0).val = (y 0).val; rw [(idx_fixed t).2.2.2.2.1 0]; omega
  | ⟨1, _⟩ => show win0_5.index t 1 * 800 + 1 * (y 1).val = (y 1).val; rw [(idx_fixed t).2.2.2.2.1 1]; omega

theorem blk_6 (c : Dev nD) (t : Fin cfg0.N) : (iblk m c 6 t : S800x1000.Idx → EReal) = A6 m c := by
  funext y; unfold iblk; rw [View.read_apply]
  refine congrArg (A6 m c) (funext fun a => Fin.ext ?_)
  match a with
  | ⟨0, _⟩ => show win0_6.index t 0 * 800 + 1 * (y 0).val = (y 0).val; rw [(idx_fixed t).2.2.2.2.2.1 0]; omega
  | ⟨1, _⟩ => show win0_6.index t 1 * 1000 + 1 * (y 1).val = (y 1).val; rw [(idx_fixed t).2.2.2.2.2.1 1]; omega

theorem blk_7 (c : Dev nD) (t : Fin cfg0.N) : (iblk m c 7 t : S400x800.Idx → EReal) = A7 m c := by
  funext y; unfold iblk; rw [View.read_apply]
  refine congrArg (A7 m c) (funext fun a => Fin.ext ?_)
  match a with
  | ⟨0, _⟩ => show win0_7.index t 0 * 400 + 1 * (y 0).val = (y 0).val; rw [(idx_fixed t).2.2.2.2.2.2.1 0]; omega
  | ⟨1, _⟩ => show win0_7.index t 1 * 800 + 1 * (y 1).val = (y 1).val; rw [(idx_fixed t).2.2.2.2.2.2.1 1]; omega

theorem blk_8 (c : Dev nD) (t : Fin cfg0.N) : (iblk m c 8 t : S1x400.Idx → EReal) = A8 m c := by
  funext y; unfold iblk; rw [View.read_apply]
  refine congrArg (A8 m c) (funext fun a => Fin.ext ?_)
  match a with
  | ⟨0, _⟩ => show win0_8.index t 0 * 1 + 1 * (y 0).val = (y 0).val; rw [(idx_fixed t).2.2.2.2.2.2.2.1 0]; omega
  | ⟨1, _⟩ => show win0_8.index t 1 * 400 + 1 * (y 1).val = (y 1).val; rw [(idx_fixed t).2.2.2.2.2.2.2.1 1]; omega

theorem blk_9 (c : Dev nD) (t : Fin cfg0.N) : (iblk m c 9 t : S400x800.Idx → EReal) = A9 m c := by
  funext y; unfold iblk; rw [View.read_apply]
  refine congrArg (A9 m c) (funext fun a => Fin.ext ?_)
  match a with
  | ⟨0, _⟩ => show win0_9.index t 0 * 400 + 1 * (y 0).val = (y 0).val; rw [(idx_fixed t).2.2.2.2.2.2.2.2.1 0]; omega
  | ⟨1, _⟩ => show win0_9.index t 1 * 800 + 1 * (y 1).val = (y 1).val; rw [(idx_fixed t).2.2.2.2.2.2.2.2.1 1]; omega

theorem blk_10 (c : Dev nD) (t : Fin cfg0.N) : (iblk m c 10 t : S600x400.Idx → EReal) = A10 m c := by
  funext y; unfold iblk; rw [View.read_apply]
  refine congrArg (A10 m c) (funext fun a => Fin.ext ?_)
  match a with
  | ⟨0, _⟩ => show win0_10.index t 0 * 600 + 1 * (y 0).val = (y 0).val; rw [(idx_fixed t).2.2.2.2.2.2.2.2.2.1 0]; omega
  | ⟨1, _⟩ => show win0_10.index t 1 * 400 + 1 * (y 1).val = (y 1).val; rw [(idx_fixed t).2.2.2.2.2.2.2.2.2.1 1]; omega

theorem blk_11 (c : Dev nD) (t : Fin cfg0.N) : (iblk m c 11 t : S1x600.Idx → EReal) = A11 m c := by
  funext y; unfold iblk; rw [View.read_apply]
  refine congrArg (A11 m c) (funext fun a => Fin.ext ?_)
  match a with
  | ⟨0, _⟩ => show win0_11.index t 0 * 1 + 1 * (y 0).val = (y 0).val; rw [(idx_fixed t).2.2.2.2.2.2.2.2.2.2.1 0]; omega
  | ⟨1, _⟩ => show win0_11.index t 1 * 600 + 1 * (y 1).val = (y 1).val; rw [(idx_fixed t).2.2.2.2.2.2.2.2.2.2.1 1]; omega

theorem blk_12 (c : Dev nD) (t : Fin cfg0.N) : (iblk m c 12 t : S600x400.Idx → EReal) = A12 m c := by
  funext y; unfold iblk; rw [View.read_apply]
  refine congrArg (A12 m c) (funext fun a => Fin.ext ?_)
  match a with
  | ⟨0, _⟩ => show win0_12.index t 0 * 600 + 1 * (y 0).val = (y 0).val; rw [(idx_fixed t).2.2.2.2.2.2.2.2.2.2.2.1 0]; omega
  | ⟨1, _⟩ => show win0_12.index t 1 * 400 + 1 * (y 1).val = (y 1).val; rw [(idx_fixed t).2.2.2.2.2.2.2.2.2.2.2.1 1]; omega

theorem blk_13 (c : Dev nD) (t : Fin cfg0.N) : (iblk m c 13 t : S6x600.Idx → EReal) = A13 m c := by
  funext y; unfold iblk; rw [View.read_apply]
  refine congrArg (A13 m c) (funext fun a => Fin.ext ?_)
  match a with
  | ⟨0, _⟩ => show win0_13.index t 0 * 6 + 1 * (y 0).val = (y 0).val; rw [(idx_fixed t).2.2.2.2.2.2.2.2.2.2.2.2.1 0]; omega
  | ⟨1, _⟩ => show win0_13.index t 1 * 600 + 1 * (y 1).val = (y 1).val; rw [(idx_fixed t).2.2.2.2.2.2.2.2.2.2.2.2.1 1]; omega

theorem blk_14 (c : Dev nD) (t : Fin cfg0.N) : (iblk m c 14 t : S1x6.Idx → EReal) = A14 m c := by
  funext y; unfold iblk; rw [View.read_apply]
  refine congrArg (A14 m c) (funext fun a => Fin.ext ?_)
  match a with
  | ⟨0, _⟩ => show win0_14.index t 0 * 1 + 1 * (y 0).val = (y 0).val; rw [(idx_fixed t).2.2.2.2.2.2.2.2.2.2.2.2.2.1 0]; omega
  | ⟨1, _⟩ => show win0_14.index t 1 * 6 + 1 * (y 1).val = (y 1).val; rw [(idx_fixed t).2.2.2.2.2.2.2.2.2.2.2.2.2.1 1]; omega

theorem blk_15 (c : Dev nD) (t : Fin cfg0.N) : (iblk m c 15 t : S6x600.Idx → EReal) = A15 m c := by
  funext y; unfold iblk; rw [View.read_apply]
  refine congrArg (A15 m c) (funext fun a => Fin.ext ?_)
  match a with
  | ⟨0, _⟩ => show win0_15.index t 0 * 6 + 1 * (y 0).val = (y 0).val; rw [(idx_fixed t).2.2.2.2.2.2.2.2.2.2.2.2.2.2 0]; omega
  | ⟨1, _⟩ => show win0_15.index t 1 * 600 + 1 * (y 1).val = (y 1).val; rw [(idx_fixed t).2.2.2.2.2.2.2.2.2.2.2.2.2.2 1]; omega

end Cert.KernelIdeal.Arrays

end
-- ==== Proof.Final.lean ====
/-
  The five output arrays after the run.

  What grid point `t` writes back for layer `l` is the tile's layer-`l` result, which is block `t` (rows
  `1024·t … 1024·t + 1023`) of layer `l` of the whole input; row `r` of an output array lies in the block of point
  `r / 1024`; so after the last point each output array holds its layer of the whole input.
-/
import proofs.«150853_g54752243090113_cont_9to1c4b_246_26_alg».proof.Proof.Arrays

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.MaskedLayer Cert.Network Cert.KernelIdeal.Arrays

/-! ## The blocks are whole: nothing is cut at the arrays' ends -/

theorem cut16 (t : Fin cfg0.N) (v : S1024x1000.Idx → EReal) : (cfg0.win 16).cut (grid0.coords t) v = v := rfl
theorem cut17 (t : Fin cfg0.N) (v : S1024x800.Idx → EReal) : (cfg0.win 17).cut (grid0.coords t) v = v := rfl
theorem cut18 (t : Fin cfg0.N) (v : S1024x400.Idx → EReal) : (cfg0.win 18).cut (grid0.coords t) v = v := rfl
theorem cut19 (t : Fin cfg0.N) (v : S1024x600.Idx → EReal) : (cfg0.win 19).cut (grid0.coords t) v = v := rfl
theorem cut20 (t : Fin cfg0.N) (v : S1024x6.Idx → EReal) : (cfg0.win 20).cut (grid0.coords t) v = v := rfl

/-! ## Which rows a block holds -/

theorem mem_blk16 (t : Fin cfg0.N) (i : S16384x1000.Idx) :
    i ∈ ((cfg0.win 16).blk t).view.set ↔ ∀ a : Fin 2, win0_16.index t a * S1024x1000.size a ≤ (i a).val ∧ (i a).val < win0_16.index t a * S1024x1000.size a + S1024x1000.size a := by
  show i ∈ ((View.whole main_v5_0).slice (win0_16.rect t)).set ↔ _
  rw [View.set_slice_whole, Rect.mem_set_unit]
  exact Iff.rfl

theorem mem_blk17 (t : Fin cfg0.N) (i : S16384x800.Idx) :
    i ∈ ((cfg0.win 17).blk t).view.set ↔ ∀ a : Fin 2, win0_17.index t a * S1024x800.size a ≤ (i a).val ∧ (i a).val < win0_17.index t a * S1024x800.size a + S1024x800.size a := by
  show i ∈ ((View.whole main_v5_1).slice (win0_17.rect t)).set ↔ _
  rw [View.set_slice_whole, Rect.mem_set_unit]
  exact Iff.rfl

theorem mem_blk18 (t : Fin cfg0.N) (i : S16384x400.Idx) :
    i ∈ ((cfg0.win 18).blk t).view.set ↔ ∀ a : Fin 2, win0_18.index t a * S1024x400.size a ≤ (i a).val ∧ (i a).val < win0_18.index t a * S1024x400.size a + S1024x400.size a := by
  show i ∈ ((View.whole main_v5_2).slice (win0_18.rect t)).set ↔ _
  rw [View.set_slice_whole, Rect.mem_set_unit]
  exact Iff.rfl

theorem mem_blk19 (t : Fin cfg0.N) (i : S16384x600.Idx) :
    i ∈ ((cfg0.win 19).blk t).view.set ↔ ∀ a : Fin 2, win0_19.index t a * S1024x600.size a ≤ (i a).val ∧ (i a).val < win0_19.index t a * S1024x600.size a + S1024x600.size a := by
  show i ∈ ((View.whole main_v5_3).slice (win0_19.rect t)).set ↔ _
  rw [View.set_slice_whole, Rect.mem_set_unit]
  exact Iff.rfl

theorem mem_blk20 (t : Fin cfg0.N) (i : S16384x6.Idx) :
    i ∈ ((cfg0.win 20).blk t).view.set ↔ ∀ a : Fin 2, win0_20.index t a * S1024x6.size a ≤ (i a).val ∧ (i a).val < win0_20.index t a * S1024x6.size a + S1024x6.size a := by
  show i ∈ ((View.whole main_v5_4).slice (win0_20.rect t)).set ↔ _
  rw [View.set_slice_whole, Rect.mem_set_unit]
  exact Iff.rfl

/-- Row `r` is in the block of point `r / 1024`, and every point writes its block back. -/
theorem cover16 (i : S16384x1000.Idx) : ∃ t : Fin cfg0.N, (cfg0.win 16).flush t = true ∧ i ∈ ((cfg0.win 16).blk t).view.set := by
  have h0 : (i 0).val < 16384 := (i 0).isLt
  have h1 : (i 1).val < 1000 := (i 1).isLt
  have hN : cfg0.N = 16 := N_0
  let t : Fin cfg0.N := ⟨(i 0).val / 1024, by omega⟩
  have ht : t.val = (i 0).val / 1024 := rfl
  obtain ⟨e0, e1⟩ := (idx_moving t).2.1
  refine ⟨t, flush0_16 t, ?_⟩
  rw [mem_blk16]
  intro a
  match a with
  | ⟨0, _⟩ => show win0_16.index t 0 * 1024 ≤ (i 0).val ∧ (i 0).val < win0_16.index t 0 * 1024 + 1024; rw [e0]; omega
  | ⟨1, _⟩ => show win0_16.index t 1 * 1000 ≤ (i 1).val ∧ (i 1).val < win0_16.index t 1 * 1000 + 1000; rw [e1]; omega

theorem cover17 (i : S16384x800.Idx) : ∃ t : Fin cfg0.N, (cfg0.win 17).flush t = true ∧ i ∈ ((cfg0.win 17).blk t).view.set := by
  have h0 : (i 0).val < 16384 := (i 0).isLt
  have h1 : (i 1).val < 800 := (i 1).isLt
  have hN : cfg0.N = 16 := N_0
  let t : Fin cfg0.N := ⟨(i 0).val / 1024, by omega⟩
  have ht : t.val = (i 0).val / 1024 := rfl
  obtain ⟨e0, e1⟩ := (idx_moving t).2.2.1
  refine ⟨t, flush0_17 t, ?_⟩
  rw [mem_blk17]
  intro a
  match a with
  | ⟨0, _⟩ => show win0_17.index t 0 * 1024 ≤ (i 0).val ∧ (i 0).val < win0_17.index t 0 * 1024 + 1024; rw [e0]; omega
  | ⟨1, _⟩ => show win0_17.index t 1 * 800 ≤ (i 1).val ∧ (i 1).val < win0_17.index t 1 * 800 + 800; rw [e1]; omega

theorem cover18 (i : S16384x400.Idx) : ∃ t : Fin cfg0.N, (cfg0.win 18).flush t = true ∧ i ∈ ((cfg0.win 18).blk t).view.set := by
  have h0 : (i 0).val < 16384 := (i 0).isLt
  have h1 : (i 1).val < 400 := (i 1).isLt
  have hN : cfg0.N = 16 := N_0
  let t : Fin cfg0.N := ⟨(i 0).val / 1024, by omega⟩
  have ht : t.val = (i 0).val / 1024 := rfl
  obtain ⟨e0, e1⟩ := (idx_moving t).2.2.2.1
  refine ⟨t, flush0_18 t, ?_⟩
  rw [mem_blk18]
  intro a
  match a with
  | ⟨0, _⟩ => show win0_18.index t 0 * 1024 ≤ (i 0).val ∧ (i 0).val < win0_18.index t 0 * 1024 + 1024; rw [e0]; omega
  | ⟨1, _⟩ => show win0_18.index t 1 * 400 ≤ (i 1).val ∧ (i 1).val < win0_18.index t 1 * 400 + 400; rw [e1]; omega

theorem cover19 (i : S16384x600.Idx) : ∃ t : Fin cfg0.N, (cfg0.win 19).flush t = true ∧ i ∈ ((cfg0.win 19).blk t).view.set := by
  have h0 : (i 0).val < 16384 := (i 0).isLt
  have h1 : (i 1).val < 600 := (i 1).isLt
  have hN : cfg0.N = 16 := N_0
  let t : Fin cfg0.N := ⟨(i 0).val / 1024, by omega⟩
  have ht : t.val = (i 0).val / 1024 := rfl
  obtain ⟨e0, e1⟩ := (idx_moving t).2.2.2.2.1
  refine ⟨t, flush0_19 t, ?_⟩
  rw [mem_blk19]
  intro a
  match a with
  | ⟨0, _⟩ => show win0_19.index t 0 * 1024 ≤ (i 0).val ∧ (i 0).val < win0_19.index t 0 * 1024 + 1024; rw [e0]; omega
  | ⟨1, _⟩ => show win0_19.index t 1 * 600 ≤ (i 1).val ∧ (i 1).val < win0_19.index t 1 * 600 + 600; rw [e1]; omega

theorem cover20 (i : S16384x6.Idx) : ∃ t : Fin cfg0.N, (cfg0.win 20).flush t = true ∧ i ∈ ((cfg0.win 20).blk t).view.set := by
  have h0 : (i 0).val < 16384 := (i 0).isLt
  have h1 : (i 1).val < 6 := (i 1).isLt
  have hN : cfg0.N = 16 := N_0
  let t : Fin cfg0.N := ⟨(i 0).val / 1024, by omega⟩
  have ht : t.val = (i 0).val / 1024 := rfl
  obtain ⟨e0, e1⟩ := (idx_moving t).2.2.2.2.2
  refine ⟨t, flush0_20 t, ?_⟩
  rw [mem_blk20]
  intro a
  match a with
  | ⟨0, _⟩ => show win0_20.index t 0 * 1024 ≤ (i 0).val ∧ (i 0).val < win0_20.index t 0 * 1024 + 1024; rw [e0]; omega
  | ⟨1, _⟩ => show win0_20.index t 1 * 6 ≤ (i 1).val ∧ (i 1).val < win0_20.index t 1 * 6 + 6; rw [e1]; omega

/-! ## What each point writes back, and the arrays after the run -/

variable (m : (ℓ : Loc nD τ sig) → Buf (Elt Ideal) ℓ)

theorem flushed16 (c : Dev nD) (t : Fin cfg0.N) :
    (dats m 0 c).flushed 16 t = ((cfg0.win 16).blk t).view.read (Elt Ideal) (h1 (params m c) (X m c)) := by
  show (cfg0.win 16).cut (grid0.coords t) ((dats m 0 c).after 16 t) = _
  rw [after0_16, cut16, read16 t, blk_x m c t, blk_1 m c t, blk_2 m c t, blk_3 m c t, blk_4 m c t, blk_5 m c t,
    blk_6 m c t, blk_7 m c t, blk_8 m c t, blk_9 m c t, blk_10 m c t, blk_11 m c t, blk_12 m c t, blk_13 m c t,
    blk_14 m c t, blk_15 m c t]
  exact Tile.out16_h1 _ _ _ _ _ _ _ _ _ _ _ _ _ _ _ _

theorem flushed17 (c : Dev nD) (t : Fin cfg0.N) :
    (dats m 0 c).flushed 17 t = ((cfg0.win 17).blk t).view.read (Elt Ideal) (h2 (params m c) (X m c)) := by
  show (cfg0.win 17).cut (grid0.coords t) ((dats m 0 c).after 17 t) = _
  rw [after0_17, cut17, read17 t, blk_x m c t, blk_1 m c t, blk_2 m c t, blk_3 m c t, blk_4 m c t, blk_5 m c t,
    blk_6 m c t, blk_7 m c t, blk_8 m c t, blk_9 m c t, blk_10 m c t, blk_11 m c t, blk_12 m c t, blk_13 m c t,
    blk_14 m c t, blk_15 m c t]
  exact Tile.out17_h2 _ _ _ _ _ _ _ _ _ _ _ _ _ _ _ _

theorem flushed18 (c : Dev nD) (t : Fin cfg0.N) :
    (dats m 0 c).flushed 18 t = ((cfg0.win 18).blk t).view.read (Elt Ideal) (h3 (params m c) (X m c)) := by
  show (cfg0.win 18).cut (grid0.coords t) ((dats m 0 c).after 18 t) = _
  rw [after0_18, cut18, read18 t, blk_x m c t, blk_1 m c t, blk_2 m c t, blk_3 m c t, blk_4 m c t, blk_5 m c t,
    blk_6 m c t, blk_7 m c t, blk_8 m c t, blk_9 m c t, blk_10 m c t, blk_11 m c t, blk_12 m c t, blk_13 m c t,
    blk_14 m c t, blk_15 m c t]
  exact Tile.out18_h3 _ _ _ _ _ _ _ _ _ _ _ _ _ _ _ _

theorem flushed19 (c : Dev nD) (t : Fin cfg0.N) :
    (dats m 0 c).flushed 19 t = ((cfg0.win 19).blk t).view.read (Elt Ideal) (h4 (params m c) (X m c)) := by
  show (cfg0.win 19).cut (grid0.coords t) ((dats m 0 c).after 19 t) = _
  rw [after0_19, cut19, read19 t, blk_x m c t, blk_1 m c t, blk_2 m c t, blk_3 m c t, blk_4 m c t, blk_5 m c t,
    blk_6 m c t, blk_7 m c t, blk_8 m c t, blk_9 m c t, blk_10 m c t, blk_11 m c t, blk_12 m c t, blk_13 m c t,
    blk_14 m c t, blk_15 m c t]
  exact Tile.out19_h4 _ _ _ _ _ _ _ _ _ _ _ _ _ _ _ _

theorem flushed20 (c : Dev nD) (t : Fin cfg0.N) :
    (dats m 0 c).flushed 20 t = ((cfg0.win 20).blk t).view.read (Elt Ideal) (h5 (params m c) (X m c)) := by
  show (cfg0.win 20).cut (grid0.coords t) ((dats m 0 c).after 20 t) = _
  rw [after0_20, cut20, read20 t, blk_x m c t, blk_1 m c t, blk_2 m c t, blk_3 m c t, blk_4 m c t, blk_5 m c t,
    blk_6 m c t, blk_7 m c t, blk_8 m c t, blk_9 m c t, blk_10 m c t, blk_11 m c t, blk_12 m c t, blk_13 m c t,
    blk_14 m c t, blk_15 m c t]
  exact Tile.out20_h5 _ _ _ _ _ _ _ _ _ _ _ _ _ _ _ _

theorem final16 (c : Dev nD) : (dats m 0 c).arrAt 16 cfg0.N = h1 (params m c) (X m c) :=
  (dats m 0 c).arrAt_eq_of_cover 16 (h1 (params m c) (X m c)) (fun t _ => flushed16 m c t) cover16
theorem final17 (c : Dev nD) : (dats m 0 c).arrAt 17 cfg0.N = h2 (params m c) (X m c) :=
  (dats m 0 c).arrAt_eq_of_cover 17 (h2 (params m c) (X m c)) (fun t _ => flushed17 m c t) cover17
theorem final18 (c : Dev nD) : (dats m 0 c).arrAt 18 cfg0.N = h3 (params m c) (X m c) :=
  (dats m 0 c).arrAt_eq_of_cover 18 (h3 (params m c) (X m c)) (fun t _ => flushed18 m c t) cover18
theorem final19 (c : Dev nD) : (dats m 0 c).arrAt 19 cfg0.N = h4 (params m c) (X m c) :=
  (dats m 0 c).arrAt_eq_of_cover 19 (h4 (params m c) (X m c)) (fun t _ => flushed19 m c t) cover19
theorem final20 (c : Dev nD) : (dats m 0 c).arrAt 20 cfg0.N = h5 (params m c) (X m c) :=
  (dats m 0 c).arrAt_eq_of_cover 20 (h5 (params m c) (X m c)) (fun t _ => flushed20 m c t) cover20

end Cert.KernelIdeal.Final

end
-- ==== Proof.Whole.lean ====
/-
  The idealized kernel's whole run: its six results as functions of the arguments at launch.

  Before the region the host reshapes each bias of length `D` to a `[1, D]` row (entry `(0, q)` of the row is entry `q`
  of the bias) and writes nothing else, so the region finds every argument as launched. After the region the host
  widens each of the five output arrays from the short float format to the long one, which is the identity on extended
  reals. So the six results are layers 5, 1, 2, 3, 4, 5 of the network of the launched input and parameters, and the
  sixteen arguments end as they were launched.
-/
import proofs.«150853_g54752243090113_cont_9to1c4b_246_26_alg».proof.Proof.Final
import Idealize.ShloMosaic.Lib.StableHlo.Run

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.MaskedLayer Cert.Network Cert.KernelIdeal.Arrays Cert.KernelIdeal.Final

variable (m : (ℓ : Loc nD τ sig) → Buf (Elt Ideal) ℓ) (ρ : Dev nD → PrngReg)

/-! ## The bias rows the region finds -/

theorem bias1 (c : Dev nD) (q : Fin 1000) :
    A2 m c (ix2 0 q) = (m ((c.tc : Thread nD τ).loc main_arg2) : S1000.Idx → EReal) (ix1 q) := by
  have e : A2 m c = shapeCast S1x1000 (m ((c.tc : Thread nD τ).loc main_arg2) : S1000.Idx → EReal) shapeCasts_S1000_S1x1000 := by
    show StableHlo.after hostOps0 (fun b => m (c, b)) (Proc.devRef .tc main_v0) = _
    after_results
    rfl
  rw [e]
  exact shapeCast_apply _ _ (ix2 0 q) (ix1 q) (by rw [Shape.rowMajor_val_one, Shape.rowMajor_val_two]; show q.val = 0 * 1000 + q.val; omega)

theorem bias2 (c : Dev nD) (q : Fin 800) :
    A5 m c (ix2 0 q) = (m ((c.tc : Thread nD τ).loc main_arg5) : S800.Idx → EReal) (ix1 q) := by
  have e : A5 m c = shapeCast S1x800 (m ((c.tc : Thread nD τ).loc main_arg5) : S800.Idx → EReal) shapeCasts_S800_S1x800 := by
    show StableHlo.after hostOps0 (fun b => m (c, b)) (Proc.devRef .tc main_v1) = _
    after_results
    rfl
  rw [e]
  exact shapeCast_apply _ _ (ix2 0 q) (ix1 q) (by rw [Shape.rowMajor_val_one, Shape.rowMajor_val_two]; show q.val = 0 * 800 + q.val; omega)

theorem bias3 (c : Dev nD) (q : Fin 400) :
    A8 m c (ix2 0 q) = (m ((c.tc : Thread nD τ).loc main_arg8) : S400.Idx → EReal) (ix1 q) := by
  have e : A8 m c = shapeCast S1x400 (m ((c.tc : Thread nD τ).loc main_arg8) : S400.Idx → EReal) shapeCasts_S400_S1x400 := by
    show StableHlo.after hostOps0 (fun b => m (c, b)) (Proc.devRef .tc main_v2) = _
    after_results
    rfl
  rw [e]
  exact shapeCast_apply _ _ (ix2 0 q) (ix1 q) (by rw [Shape.rowMajor_val_one, Shape.rowMajor_val_two]; show q.val = 0 * 400 + q.val; omega)

theorem bias4 (c : Dev nD) (q : Fin 600) :
    A11 m c (ix2 0 q) = (m ((c.tc : Thread nD τ).loc main_arg11) : S600.Idx → EReal) (ix1 q) := by
  have e : A11 m c = shapeCast S1x600 (m ((c.tc : Thread nD τ).loc main_arg11) : S600.Idx → EReal) shapeCasts_S600_S1x600 := by
    show StableHlo.after hostOps0 (fun b => m (c, b)) (Proc.devRef .tc main_v3) = _
    after_results
    rfl
  rw [e]
  exact shapeCast_apply _ _ (ix2 0 q) (ix1 q) (by rw [Shape.rowMajor_val_one, Shape.rowMajor_val_two]; show q.val = 0 * 600 + q.val; omega)

theorem bias5 (c : Dev nD) (q : Fin 6) :
    A14 m c (ix2 0 q) = (m ((c.tc : Thread nD τ).loc main_arg14) : S6.Idx → EReal) (ix1 q) := by
  have e : A14 m c = shapeCast S1x6 (m ((c.tc : Thread nD τ).loc main_arg14) : S6.Idx → EReal) shapeCasts_S6_S1x6 := by
    show StableHlo.after hostOps0 (fun b => m (c, b)) (Proc.devRef .tc main_v4) = _
    after_results
    rfl
  rw [e]
  exact shapeCast_apply _ _ (ix2 0 q) (ix1 q) (by rw [Shape.rowMajor_val_one, Shape.rowMajor_val_two]; show q.val = 0 * 6 + q.val; omega)

/-! ## The parameters and the input, as launched -/

/-- The network's parameters read off the memory the program is launched from. -/
def argParams (c : Dev nD) : Params where
  W1 := m ((c.tc : Thread nD τ).loc main_arg1)
  M1 := m ((c.tc : Thread nD τ).loc main_arg3)
  b1 := fun q => (m ((c.tc : Thread nD τ).loc main_arg2) : S1000.Idx → EReal) (ix1 q)
  W2 := m ((c.tc : Thread nD τ).loc main_arg4)
  M2 := m ((c.tc : Thread nD τ).loc main_arg6)
  b2 := fun q => (m ((c.tc : Thread nD τ).loc main_arg5) : S800.Idx → EReal) (ix1 q)
  W3 := m ((c.tc : Thread nD τ).loc main_arg7)
  M3 := m ((c.tc : Thread nD τ).loc main_arg9)
  b3 := fun q => (m ((c.tc : Thread nD τ).loc main_arg8) : S400.Idx → EReal) (ix1 q)
  W4 := m ((c.tc : Thread nD τ).loc main_arg10)
  M4 := m ((c.tc : Thread nD τ).loc main_arg12)
  b4 := fun q => (m ((c.tc : Thread nD τ).loc main_arg11) : S600.Idx → EReal) (ix1 q)
  W5 := m ((c.tc : Thread nD τ).loc main_arg13)
  M5 := m ((c.tc : Thread nD τ).loc main_arg15)
  b5 := fun q => (m ((c.tc : Thread nD τ).loc main_arg14) : S6.Idx → EReal) (ix1 q)

/-- The region finds the launched parameters. -/
theorem params_eq (c : Dev nD) : params m c = argParams m c := by
  have e1 : A1 m c = m ((c.tc : Thread nD τ).loc main_arg1) := V_main_arg1 m c
  have e3 : A3 m c = m ((c.tc : Thread nD τ).loc main_arg3) := V_main_arg3 m c
  have e4 : A4 m c = m ((c.tc : Thread nD τ).loc main_arg4) := V_main_arg4 m c
  have e6 : A6 m c = m ((c.tc : Thread nD τ).loc main_arg6) := V_main_arg6 m c
  have e7 : A7 m c = m ((c.tc : Thread nD τ).loc main_arg7) := V_main_arg7 m c
  have e9 : A9 m c = m ((c.tc : Thread nD τ).loc main_arg9) := V_main_arg9 m c
  have e10 : A10 m c = m ((c.tc : Thread nD τ).loc main_arg10) := V_main_arg10 m c
  have e12 : A12 m c = m ((c.tc : Thread nD τ).loc main_arg12) := V_main_arg12 m c
  have e13 : A13 m c = m ((c.tc : Thread nD τ).loc main_arg13) := V_main_arg13 m c
  have e15 : A15 m c = m ((c.tc : Thread nD τ).loc main_arg15) := V_main_arg15 m c
  have f1 : (fun q : Fin 1000 => A2 m c (ix2 0 q)) = fun q => (m ((c.tc : Thread nD τ).loc main_arg2) : S1000.Idx → EReal) (ix1 q) := funext (bias1 m c)
  have f2 : (fun q : Fin 800 => A5 m c (ix2 0 q)) = fun q => (m ((c.tc : Thread nD τ).loc main_arg5) : S800.Idx → EReal) (ix1 q) := funext (bias2 m c)
  have f3 : (fun q : Fin 400 => A8 m c (ix2 0 q)) = fun q => (m ((c.tc : Thread nD τ).loc main_arg8) : S400.Idx → EReal) (ix1 q) := funext (bias3 m c)
  have f4 : (fun q : Fin 600 => A11 m c (ix2 0 q)) = fun q => (m ((c.tc : Thread nD τ).loc main_arg11) : S600.Idx → EReal) (ix1 q) := funext (bias4 m c)
  have f5 : (fun q : Fin 6 => A14 m c (ix2 0 q)) = fun q => (m ((c.tc : Thread nD τ).loc main_arg14) : S6.Idx → EReal) (ix1 q) := funext (bias5 m c)
  unfold params Tile.params argParams
  rw [e1, e3, e4, e6, e7, e9, e10, e12, e13, e15, f1, f2, f3, f4, f5]

/-- The region finds the launched input. -/
theorem X_eq (c : Dev nD) : X m c = m ((c.tc : Thread nD τ).loc main_arg0) := V_main_arg0 m c

/-! ## The results after the host's last lines -/

theorem res_v6 (c : Dev nD) :
    (Pipeline.afterTail₀ cfgs (dats m) 0 (V0 m) [hostOps1] c main_v6 : S16384x1000.Idx → EReal)
      = h1 (argParams m c) (m ((c.tc : Thread nD τ).loc main_arg0)) := by
  unfold Pipeline.afterTail₀
  show StableHlo.after hostOps1 _ (Proc.devRef .tc main_v6) = _
  after_results
  exact ((Pipeline.withArrays_arr spec0 launch0.win.arr_inj c (V0 m c) (fun w => (dats m 0 c).arrAt w cfg0.N) 16).trans (final16 m c)).trans
    (by rw [params_eq m c, X_eq m c])

theorem res_v7 (c : Dev nD) :
    (Pipeline.afterTail₀ cfgs (dats m) 0 (V0 m) [hostOps1] c main_v7 : S16384x800.Idx → EReal)
      = h2 (argParams m c) (m ((c.tc : Thread nD τ).loc main_arg0)) := by
  unfold Pipeline.afterTail₀
  show StableHlo.after hostOps1 _ (Proc.devRef .tc main_v7) = _
  after_results
  exact ((Pipeline.withArrays_arr spec0 launch0.win.arr_inj c (V0 m c) (fun w => (dats m 0 c).arrAt w cfg0.N) 17).trans (final17 m c)).trans
    (by rw [params_eq m c, X_eq m c])

theorem res_v8 (c : Dev nD) :
    (Pipeline.afterTail₀ cfgs (dats m) 0 (V0 m) [hostOps1] c main_v8 : S16384x400.Idx → EReal)
      = h3 (argParams m c) (m ((c.tc : Thread nD τ).loc main_arg0)) := by
  unfold Pipeline.afterTail₀
  show StableHlo.after hostOps1 _ (Proc.devRef .tc main_v8) = _
  after_results
  exact ((Pipeline.withArrays_arr spec0 launch0.win.arr_inj c (V0 m c) (fun w => (dats m 0 c).arrAt w cfg0.N) 18).trans (final18 m c)).trans
    (by rw [params_eq m c, X_eq m c])

theorem res_v9 (c : Dev nD) :
    (Pipeline.afterTail₀ cfgs (dats m) 0 (V0 m) [hostOps1] c main_v9 : S16384x600.Idx → EReal)
      = h4 (argParams m c) (m ((c.tc : Thread nD τ).loc main_arg0)) := by
  unfold Pipeline.afterTail₀
  show StableHlo.after hostOps1 _ (Proc.devRef .tc main_v9) = _
  after_results
  exact ((Pipeline.withArrays_arr spec0 launch0.win.arr_inj c (V0 m c) (fun w => (dats m 0 c).arrAt w cfg0.N) 19).trans (final19 m c)).trans
    (by rw [params_eq m c, X_eq m c])

theorem res_v10 (c : Dev nD) :
    (Pipeline.afterTail₀ cfgs (dats m) 0 (V0 m) [hostOps1] c main_v10 : S16384x6.Idx → EReal)
      = h5 (argParams m c) (m ((c.tc : Thread nD τ).loc main_arg0)) := by
  unfold Pipeline.afterTail₀
  show StableHlo.after hostOps1 _ (Proc.devRef .tc main_v10) = _
  after_results
  exact ((Pipeline.withArrays_arr spec0 launch0.win.arr_inj c (V0 m c) (fun w => (dats m 0 c).arrAt w cfg0.N) 20).trans (final20 m c)).trans
    (by rw [params_eq m c, X_eq m c])

/-! ## The run -/

set_option maxHeartbeats 1600000 in
/-- Every weakly fair execution of the idealized kernel from `m` terminates with its six results at layers 5, 1, 2, 3,
    4, 5 of the network of the launched input and parameters, and with the sixteen arguments as launched. -/
theorem run : θ_run defs (onTc (τ := τ) (main (F := Ideal))) ⟨m, fun _ => 0, ρ⟩ (fun r => ∀ c : Dev nD,
      r.2.mem ((c.tc : Thread nD τ).loc main_v10) = h5 (argParams m c) (m ((c.tc : Thread nD τ).loc main_arg0))
      ∧ r.2.mem ((c.tc : Thread nD τ).loc main_v6) = h1 (argParams m c) (m ((c.tc : Thread nD τ).loc main_arg0))
      ∧ r.2.mem ((c.tc : Thread nD τ).loc main_v7) = h2 (argParams m c) (m ((c.tc : Thread nD τ).loc main_arg0))
      ∧ r.2.mem ((c.tc : Thread nD τ).loc main_v8) = h3 (argParams m c) (m ((c.tc : Thread nD τ).loc main_arg0))
      ∧ r.2.mem ((c.tc : Thread nD τ).loc main_v9) = h4 (argParams m c) (m ((c.tc : Thread nD τ).loc main_arg0))
      ∧ r.2.mem ((c.tc : Thread nD τ).loc main_v10) = h5 (argParams m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨((h c).2 main_v10 (Pipeline.mem_restRefs_of main_v10 (by decide) (by decide))).trans (res_v10 m c),
      ((h c).2 main_v6 (Pipeline.mem_restRefs_of main_v6 (by decide) (by decide))).trans (res_v6 m c),
      ((h c).2 main_v7 (Pipeline.mem_restRefs_of main_v7 (by decide) (by decide))).trans (res_v7 m c),
      ((h c).2 main_v8 (Pipeline.mem_restRefs_of main_v8 (by decide) (by decide))).trans (res_v8 m c),
      ((h c).2 main_v9 (Pipeline.mem_restRefs_of main_v9 (by decide) (by decide))).trans (res_v9 m c),
      ((h c).2 main_v10 (Pipeline.mem_restRefs_of main_v10 (by decide) (by decide))).trans (res_v10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).2 main_arg14 (Pipeline.mem_restRefs_of main_arg14 (by decide) (by decide))).trans (W_main_arg14 m (dats m) c),
      ((h c).1 15).trans (((dats m 0 c).arrAt_in 15 rfl _).trans ((A_eq m c 15).trans (V_main_arg15 m c)))⟩)
    (run_main m ρ)

end Cert.KernelIdeal.Whole

end
-- ==== Proof.RefLayers.lean ====
/-
  The reference, layer by layer, over the extended reals.

  Each layer of the reference multiplies weight and mask entry by entry, transposes the product, contracts the
  activation's columns with the transposed product's rows, and adds the bias broadcast along the rows; the first
  three layers then take the larger of each entry and zero. Read at an entry `(p, q)` that is
  `∑ k, act(p, k) · (W(q, k) · M(q, k)) + b(q)`, rectified or not: the layer of the specification.
-/
import proofs.«150853_g54752243090113_cont_9to1c4b_246_26_alg».proof.Proof.Gen.ReferenceIdeal.Read
import proofs.«150853_g54752243090113_cont_9to1c4b_246_26_alg».proof.Proof.Network

noncomputable section

namespace Cert.ReferenceIdeal.Layers

open Idealize.ShloMosaic Idealize.ShloMosaic.ValueIdx Cert.ReferenceIdeal Cert.ReferenceIdeal.Read Cert.MaskedLayer

variable (x0 : FVec Ideal S16384x1024 .f32)
  (x1 : FVec Ideal S1000x1024 .f32) (x2 : FVec Ideal S1000 .f32) (x3 : FVec Ideal S1000x1024 .f32)
  (x4 : FVec Ideal S800x1000 .f32) (x5 : FVec Ideal S800 .f32) (x6 : FVec Ideal S800x1000 .f32)
  (x7 : FVec Ideal S400x800 .f32) (x8 : FVec Ideal S400 .f32) (x9 : FVec Ideal S400x800 .f32)
  (x10 : FVec Ideal S600x400 .f32) (x11 : FVec Ideal S600 .f32) (x12 : FVec Ideal S600x400 .f32)
  (x13 : FVec Ideal S6x600 .f32) (x14 : FVec Ideal S6 .f32) (x15 : FVec Ideal S6x600 .f32)

/-- Layer 1: 1024 → 1000, rectified. -/
theorem layer1 : val_main_v6 (F := Ideal) x0 x1 x2 x3 = relu (affine x0 x1 x3 fun q => x2 (ix1 q)) := by
  funext i
  obtain ⟨p, q, rfl⟩ : ∃ (p : Fin 16384) (q : Fin 1000), i = ix2 p q := ⟨i 0, i 1, eq_ix2 i⟩
  have el : ∀ k : Fin 1024, lidx_main_v2 (ix2 p q) k = ix2 p k := fun k => funext fun a => Fin.ext (by
    match a with | ⟨0, _⟩ => rfl | ⟨1, _⟩ => rfl)
  have er : ∀ k : Fin 1024, idx_main_v1 (ridx_main_v2 (ix2 p q) k) = ix2 q k := fun k => funext fun a => Fin.ext (by
    match a with | ⟨0, _⟩ => rfl | ⟨1, _⟩ => rfl)
  have eb : idx_main_v3 (idx_main_v4 (ix2 p q)) = ix1 q := funext fun a => Fin.ext (by
    match a with | ⟨0, _⟩ => rfl)
  rw [val_main_v6_apply, val_main_v5_apply, val_main_v2_apply, val_main_v4_apply, val_main_v3_apply,
    val_main_call0_v0_apply, val_main_call0_cst_apply]
  simp only [val_main_v1_apply, val_main_v0_apply, el, er, eb]
  rfl

/-- Layer 2: 1000 → 800, rectified, of layer 1. -/
theorem layer2 : val_main_v13 (F := Ideal) x0 x1 x2 x3 x4 x5 x6
    = relu (affine (val_main_v6 (F := Ideal) x0 x1 x2 x3) x4 x6 fun q => x5 (ix1 q)) := by
  funext i
  obtain ⟨p, q, rfl⟩ : ∃ (p : Fin 16384) (q : Fin 800), i = ix2 p q := ⟨i 0, i 1, eq_ix2 i⟩
  have el : ∀ k : Fin 1000, lidx_main_v9 (ix2 p q) k = ix2 p k := fun k => funext fun a => Fin.ext (by
    match a with | ⟨0, _⟩ => rfl | ⟨1, _⟩ => rfl)
  have er : ∀ k : Fin 1000, idx_main_v8 (ridx_main_v9 (ix2 p q) k) = ix2 q k := fun k => funext fun a => Fin.ext (by
    match a with | ⟨0, _⟩ => rfl | ⟨1, _⟩ => rfl)
  have eb : idx_main_v10 (idx_main_v11 (ix2 p q)) = ix1 q := funext fun a => Fin.ext (by
    match a with | ⟨0, _⟩ => rfl)
  rw [val_main_v13_apply, val_main_v12_apply, val_main_v9_apply, val_main_v11_apply, val_main_v10_apply,
    val_main_call1_v0_apply, val_main_call1_cst_apply]
  simp only [val_main_v8_apply, val_main_v7_apply, el, er, eb]
  rfl

/-- Layer 3: 800 → 400, rectified, of layer 2. -/
theorem layer3 : val_main_v20 (F := Ideal) x0 x1 x2 x3 x4 x5 x6 x7 x8 x9
    = relu (affine (val_main_v13 (F := Ideal) x0 x1 x2 x3 x4 x5 x6) x7 x9 fun q => x8 (ix1 q)) := by
  funext i
  obtain ⟨p, q, rfl⟩ : ∃ (p : Fin 16384) (q : Fin 400), i = ix2 p q := ⟨i 0, i 1, eq_ix2 i⟩
  have el : ∀ k : Fin 800, lidx_main_v16 (ix2 p q) k = ix2 p k := fun k => funext fun a => Fin.ext (by
    match a with | ⟨0, _⟩ => rfl | ⟨1, _⟩ => rfl)
  have er : ∀ k : Fin 800, idx_main_v15 (ridx_main_v16 (ix2 p q) k) = ix2 q k := fun k => funext fun a => Fin.ext (by
    match a with | ⟨0, _⟩ => rfl | ⟨1, _⟩ => rfl)
  have eb : idx_main_v17 (idx_main_v18 (ix2 p q)) = ix1 q := funext fun a => Fin.ext (by
    match a with | ⟨0, _⟩ => rfl)
  rw [val_main_v20_apply, val_main_v19_apply, val_main_v16_apply, val_main_v18_apply, val_main_v17_apply,
    val_main_call2_v0_apply, val_main_call2_cst_apply]
  simp only [val_main_v15_apply, val_main_v14_apply, el, er, eb]
  rfl

/-- Layer 4: 400 → 600, affine only, of layer 3. -/
theorem layer4 : val_main_v26 (F := Ideal) x0 x1 x2 x3 x4 x5 x6 x7 x8 x9 x10 x11 x12
    = affine (val_main_v20 (F := Ideal) x0 x1 x2 x3 x4 x5 x6 x7 x8 x9) x10 x12 fun q => x11 (ix1 q) := by
  funext i
  obtain ⟨p, q, rfl⟩ : ∃ (p : Fin 16384) (q : Fin 600), i = ix2 p q := ⟨i 0, i 1, eq_ix2 i⟩
  have el : ∀ k : Fin 400, lidx_main_v23 (ix2 p q) k = ix2 p k := fun k => funext fun a => Fin.ext (by
    match a with | ⟨0, _⟩ => rfl | ⟨1, _⟩ => rfl)
  have er : ∀ k : Fin 400, idx_main_v22 (ridx_main_v23 (ix2 p q) k) = ix2 q k := fun k => funext fun a => Fin.ext (by
    match a with | ⟨0, _⟩ => rfl | ⟨1, _⟩ => rfl)
  have eb : idx_main_v24 (idx_main_v25 (ix2 p q)) = ix1 q := funext fun a => Fin.ext (by
    match a with | ⟨0, _⟩ => rfl)
  rw [val_main_v26_apply, val_main_v23_apply, val_main_v25_apply, val_main_v24_apply]
  simp only [val_main_v22_apply, val_main_v21_apply, el, er, eb]
  rfl

/-- Layer 5: 600 → 6, affine only, of layer 4. -/
theorem layer5 : val_main_v32 (F := Ideal) x0 x1 x2 x3 x4 x5 x6 x7 x8 x9 x10 x11 x12 x13 x14 x15
    = affine (val_main_v26 (F := Ideal) x0 x1 x2 x3 x4 x5 x6 x7 x8 x9 x10 x11 x12) x13 x15 fun q => x14 (ix1 q) := by
  funext i
  obtain ⟨p, q, rfl⟩ : ∃ (p : Fin 16384) (q : Fin 6), i = ix2 p q := ⟨i 0, i 1, eq_ix2 i⟩
  have el : ∀ k : Fin 600, lidx_main_v29 (ix2 p q) k = ix2 p k := fun k => funext fun a => Fin.ext (by
    match a with | ⟨0, _⟩ => rfl | ⟨1, _⟩ => rfl)
  have er : ∀ k : Fin 600, idx_main_v28 (ridx_main_v29 (ix2 p q) k) = ix2 q k := fun k => funext fun a => Fin.ext (by
    match a with | ⟨0, _⟩ => rfl | ⟨1, _⟩ => rfl)
  have eb : idx_main_v30 (idx_main_v31 (ix2 p q)) = ix1 q := funext fun a => Fin.ext (by
    match a with | ⟨0, _⟩ => rfl)
  rw [val_main_v32_apply, val_main_v29_apply, val_main_v31_apply, val_main_v30_apply]
  simp only [val_main_v28_apply, val_main_v27_apply, el, er, eb]
  rfl

/-- The reference's parameters, each bias read as a function of its one coordinate. -/
def params : Cert.Network.Params where
  W1 := x1
  M1 := x3
  b1 := fun q => x2 (ix1 q)
  W2 := x4
  M2 := x6
  b2 := fun q => x5 (ix1 q)
  W3 := x7
  M3 := x9
  b3 := fun q => x8 (ix1 q)
  W4 := x10
  M4 := x12
  b4 := fun q => x11 (ix1 q)
  W5 := x13
  M5 := x15
  b5 := fun q => x14 (ix1 q)

open Cert.Network in
/-- The reference's five results are the network's five layers of its first argument. -/
theorem results :
    val_main_v6 (F := Ideal) x0 x1 x2 x3 = h1 (params x1 x2 x3 x4 x5 x6 x7 x8 x9 x10 x11 x12 x13 x14 x15) x0
    ∧ val_main_v13 (F := Ideal) x0 x1 x2 x3 x4 x5 x6 = h2 (params x1 x2 x3 x4 x5 x6 x7 x8 x9 x10 x11 x12 x13 x14 x15) x0
    ∧ val_main_v20 (F := Ideal) x0 x1 x2 x3 x4 x5 x6 x7 x8 x9 = h3 (params x1 x2 x3 x4 x5 x6 x7 x8 x9 x10 x11 x12 x13 x14 x15) x0
    ∧ val_main_v26 (F := Ideal) x0 x1 x2 x3 x4 x5 x6 x7 x8 x9 x10 x11 x12 = h4 (params x1 x2 x3 x4 x5 x6 x7 x8 x9 x10 x11 x12 x13 x14 x15) x0
    ∧ val_main_v32 (F := Ideal) x0 x1 x2 x3 x4 x5 x6 x7 x8 x9 x10 x11 x12 x13 x14 x15 = h5 (params x1 x2 x3 x4 x5 x6 x7 x8 x9 x10 x11 x12 x13 x14 x15) x0 := by
  have e1 := layer1 x0 x1 x2 x3
  have e2 := layer2 x0 x1 x2 x3 x4 x5 x6
  have e3 := layer3 x0 x1 x2 x3 x4 x5 x6 x7 x8 x9
  have e4 := layer4 x0 x1 x2 x3 x4 x5 x6 x7 x8 x9 x10 x11 x12
  have e5 := layer5 x0 x1 x2 x3 x4 x5 x6 x7 x8 x9 x10 x11 x12 x13 x14 x15
  rw [e1] at e2
  rw [e2] at e3
  rw [e3] at e4
  rw [e4] at e5
  exact ⟨e1, e2, e3, e4, e5⟩

end Cert.ReferenceIdeal.Layers

end
-- ==== Proof.RefWhole.lean ====
/-
  The reference's whole run: its six results as functions of the arguments at launch.

  The reference computes the five layers one after another on the whole input; its six results are layers 5, 1, 2, 3, 4, 5
  of the network of the launched input and parameters, and its sixteen arguments end as launched.
-/
import proofs.«150853_g54752243090113_cont_9to1c4b_246_26_alg».proof.Proof.RefLayers

noncomputable section

namespace Cert.ReferenceIdeal.Whole

open Idealize.ShloMosaic Idealize.ShloMosaic.TcCoe Idealize.SL.Sem
open Cert.ReferenceIdeal Cert.ReferenceIdeal.Gen Cert.Network

variable (m : (ℓ : Loc nD τ sig) → Buf (Elt Ideal) ℓ) (ρ : Dev nD → PrngReg)

/-- The network's parameters read off the memory the reference is launched from. -/
def argParams (c : Dev nD) : Params :=
  Layers.params (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))
    (m ((c.tc : Thread nD τ).loc main_arg15))

set_option maxHeartbeats 1600000 in
/-- Every weakly fair execution of the reference from `m` terminates with its six results at layers 5, 1, 2, 3, 4, 5 of
    the network of the launched input and parameters, and with the sixteen arguments as launched. -/
theorem run : θ_run defs (onTc (τ := τ) (main (F := Ideal))) ⟨m, fun _ => 0, ρ⟩ (fun r => ∀ c : Dev nD,
      r.2.mem ((c.tc : Thread nD τ).loc main_v32) = h5 (argParams m c) (m ((c.tc : Thread nD τ).loc main_arg0))
      ∧ r.2.mem ((c.tc : Thread nD τ).loc main_v6) = h1 (argParams m c) (m ((c.tc : Thread nD τ).loc main_arg0))
      ∧ r.2.mem ((c.tc : Thread nD τ).loc main_v13) = h2 (argParams m c) (m ((c.tc : Thread nD τ).loc main_arg0))
      ∧ r.2.mem ((c.tc : Thread nD τ).loc main_v20) = h3 (argParams m c) (m ((c.tc : Thread nD τ).loc main_arg0))
      ∧ r.2.mem ((c.tc : Thread nD τ).loc main_v26) = h4 (argParams m c) (m ((c.tc : Thread nD τ).loc main_arg0))
      ∧ r.2.mem ((c.tc : Thread nD τ).loc main_v32) = h5 (argParams m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => by
    obtain ⟨q1, q2, q3, q4, q5⟩ := Layers.results (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg13)) (m ((c.tc : Thread nD τ).loc main_arg14))
      (m ((c.tc : Thread nD τ).loc main_arg15))
    obtain ⟨r0, r1, r2, r3, r4, r5, rest⟩ := h c
    exact ⟨r0.trans ((Read.val_main_v32_eq _ _ _ _ _ _ _ _ _ _ _ _ _ _ _ _).trans q5),
      r1.trans ((Read.val_main_v6_eq _ _ _ _).trans q1),
      r2.trans ((Read.val_main_v13_eq _ _ _ _ _ _ _).trans q2),
      r3.trans ((Read.val_main_v20_eq _ _ _ _ _ _ _ _ _ _).trans q3),
      r4.trans ((Read.val_main_v26_eq _ _ _ _ _ _ _ _ _ _ _ _ _).trans q4),
      r5.trans ((Read.val_main_v32_eq _ _ _ _ _ _ _ _ _ _ _ _ _ _ _ _).trans q5), rest⟩)
    (Cert.ReferenceIdeal.Value.run (F := Ideal) m ρ)

end Cert.ReferenceIdeal.Whole

end
-- ==== Proof.lean ====
/-
  A fused five-layer masked perceptron against its layer-by-layer reference, over the extended reals.

  The network has widths 1024 → 1000 → 800 → 400 → 600 → 6. Each layer multiplies its weight by a sparsity mask entry
  by entry and applies the masked weight's transpose to the previous activation, then adds a bias; the first three
  layers are rectified. The program returns the last layer's result, then the five layers' results in order.

  The kernel runs all five layers in one pass over a tile of 1024 rows of the batch, sixteen tiles in all, narrowing
  each matrix operand and each stored result to a shorter float format; the reference computes each layer on the whole
  batch in the long format. Over the extended reals a change of float format is the identity, so what is left is that
  (i) a matrix product that contracts the columns of the activation with the columns of the masked weight is the
  product with the masked weight's transpose: both are `∑ k, x(n, k) · (W(d, k) · M(d, k))`, term for term, in the same
  order, so no law of arithmetic is needed and the finiteness of the inputs is never used; and (ii) a layer acts on
  each row of its input by itself, so the tiles' results, written back block by block, assemble the layer of the
  whole batch (`Cert.Network.h1_rowBlock` …, `Cert.KernelIdeal.Final.final16` …).

  Both runs end with their six results at the same six functions `h5, h1, h2, h3, h4, h5` (`Cert.Network`) of the launched
  input and parameters (`Cert.KernelIdeal.Whole.run`, `Cert.ReferenceIdeal.Whole.run`); memories that agree on the
  arguments give the same parameters, hence equal results. The idealization applies no rewrite, so its ledger is empty.
-/
import proofs.«150853_g54752243090113_cont_9to1c4b_246_26_alg».proof.Defs
import proofs.«150853_g54752243090113_cont_9to1c4b_246_26_alg».proof.Proof.Gen.Kernel
import proofs.«150853_g54752243090113_cont_9to1c4b_246_26_alg».proof.Proof.Gen.Kernel.Skeleton
import proofs.«150853_g54752243090113_cont_9to1c4b_246_26_alg».proof.Proof.Gen.Kernel.Launch
import proofs.«150853_g54752243090113_cont_9to1c4b_246_26_alg».proof.Proof.Gen.Kernel.Points
import proofs.«150853_g54752243090113_cont_9to1c4b_246_26_alg».proof.Proof.Gen.Kernel.Frame
import proofs.«150853_g54752243090113_cont_9to1c4b_246_26_alg».proof.Proof.Gen.KernelIdeal
import proofs.«150853_g54752243090113_cont_9to1c4b_246_26_alg».proof.Proof.Gen.KernelIdeal.Skeleton
import proofs.«150853_g54752243090113_cont_9to1c4b_246_26_alg».proof.Proof.Gen.KernelIdeal.Launch
import proofs.«150853_g54752243090113_cont_9to1c4b_246_26_alg».proof.Proof.Gen.KernelIdeal.Points
import proofs.«150853_g54752243090113_cont_9to1c4b_246_26_alg».proof.Proof.Gen.KernelIdeal.Frame
import proofs.«150853_g54752243090113_cont_9to1c4b_246_26_alg».proof.Proof.Gen.ReferenceIdeal
import proofs.«150853_g54752243090113_cont_9to1c4b_246_26_alg».proof.Proof.Gen.ReferenceIdeal.Run
import proofs.«150853_g54752243090113_cont_9to1c4b_246_26_alg».proof.Proof.Gen.ReferenceIdeal.Read
import proofs.«150853_g54752243090113_cont_9to1c4b_246_26_alg».proof.Proof.Gen.Pre_finite_inputs
import proofs.«150853_g54752243090113_cont_9to1c4b_246_26_alg».proof.Proof.Whole
import proofs.«150853_g54752243090113_cont_9to1c4b_246_26_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the six results dropped from the post. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- The idealization rewrote nothing, so there is nothing to preserve. -/
theorem preserves : Cert.preserves_Kernel_KernelIdeal := trivial

/-- Memories that agree on the sixteen arguments give both programs the same network parameters. -/
theorem params_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Whole.argParams m' c = Cert.KernelIdeal.Whole.argParams m c := by
  unfold Cert.ReferenceIdeal.Whole.argParams Cert.ReferenceIdeal.Layers.params Cert.KernelIdeal.Whole.argParams
  rw [h1, h2, h3, h4, h5, h6, h7, h8, h9, h10, h11, h12, h13, h14, h15]

/-- From memories that agree on the arguments both idealized programs run to the same six results: each ends at the
    network's layers 5, 1, 2, 3, 4, 5 of its launched input and parameters, and those agree. -/
theorem algebraic : Cert.algebraic_KernelIdeal_ReferenceIdeal := by
  intro m ρ m' ρ' _ hagree
  refine ⟨_, _, _, _, _, _, Cert.KernelIdeal.Whole.run m ρ, ?_⟩
  refine (θ_run Cert.ReferenceIdeal.defs _ _).mono (fun _ h c => ?_) (Cert.ReferenceIdeal.Whole.run m' ρ')
  obtain ⟨a0, a1, a2, a3, a4, a5, a6, a7, a8, a9, a10, a11, a12, a13, a14, a15⟩ := hagree c
  rw [← params_agree m m' c a1 a2 a3 a4 a5 a6 a7 a8 a9 a10 a11 a12 a13 a14 a15, ← a0]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
